-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S1x8192x8192 : S_.BroadcastsInDim S1x8192x8192 (![] : Fin 0 → Fin S1x8192x8192.rank)
  reducesTo_S1x8192x8192_S_d0_1_2 : S1x8192x8192.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S1x8192x8192 .f32) (main_arg1 : FVec F S1x8192x256 .f32) (main_arg2 : FVec F S256x256 .f32) (main_arg3 : FVec F S256 .f32) (main_arg4 : FVec F S512x256 .f32) (main_arg5 : FVec F S256 .f32) : IVec S_ 1 :=
  let main_v0 : FVec F S1x8192x8192 .f32 := Host.absf main_arg0
  let main_cst : FVec F S_ .f32 := constant S_ .f32 0x7F800000#32
  let main_v1 : FVec F S1x8192x8192 .f32 := broadcastInDim S1x8192x8192 ![] bcast_S_S1x8192x8192 main_cst
  let main_v2 : IVec S1x8192x8192 1 := cmpf .olt main_v0 main_v1
  let main_c : IVec S_ 1 := constantI S_ 1 1#1
  let main_v3 : IVec S_ 1 := (fun x v => Host.reduce IntOp.andi x v reducesTo_S1x8192x8192_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S8192x8192 : Shape := ⟨2, ![8192, 8192]⟩
abbrev S8192x256 : Shape := ⟨2, ![8192, 256]⟩
abbrev S1x256 : Shape := ⟨2, ![1, 256]⟩
abbrev S2048x256 : Shape := ⟨2, ![2048, 256]⟩
abbrev S2048x1024 : Shape := ⟨2, ![2048, 1024]⟩
abbrev S1024x256 : Shape := ⟨2, ![1024, 256]⟩
abbrev S2048x128 : Shape := ⟨2, ![2048, 128]⟩
abbrev S2048 : Shape := ⟨1, ![2048]⟩
abbrev S2048x1 : Shape := ⟨2, ![2048, 1]⟩
abbrev S_ : Shape := ⟨0, ![]⟩

abbrev nBuf : Space → Nat
  | .hbm => 24
  | .vmem => 23
  | .smem => 0
  | _ => 0

abbrev bufTy : (tb : Table) → Fin (tcTables nBuf tb) → BufTy
  | .hbm, ⟨0, _⟩ => ⟨S1x8192x8192, .f32⟩
  | .hbm, ⟨1, _⟩ => ⟨S1x8192x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S8192x8192, .f32⟩
  | .hbm, ⟨7, _⟩ => ⟨S8192x256, .f32⟩
  | .hbm, ⟨8, _⟩ => ⟨S1x256, .f32⟩
  | .hbm, ⟨9, _⟩ => ⟨S1x256, .f32⟩
  | .hbm, ⟨10, _⟩ => ⟨S256x256, .f32⟩
  | .hbm, ⟨11, _⟩ => ⟨S256x256, .f32⟩
  | .hbm, ⟨12, _⟩ => ⟨S8192x256, .bf16⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S1x8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | .local _ .vmem, ⟨6, _⟩ => ⟨S2048x1024, .f32⟩
  | .local _ .vmem, ⟨7, _⟩ => ⟨S2048x1024, .f32⟩
  | .local _ .vmem, ⟨8, _⟩ => ⟨S1024x256, .bf16⟩
  | .local _ .vmem, ⟨9, _⟩ => ⟨S1024x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x128, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S2048x256, .f32⟩
  | .local _ .vmem, ⟨22, _⟩ => ⟨S2048x256, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S1x8192x8192_S8192x8192 : S1x8192x8192.ShapeCasts S8192x8192
  shapeCasts_S1x8192x256_S8192x256 : S1x8192x256.ShapeCasts S8192x256
  shapeCasts_S256_S1x256 : S256.ShapeCasts S1x256
  slices_S512x256_S256x256_0_0 : S512x256.Slices ![0, 0] S256x256
  slices_S512x256_S256x256_256_0 : S512x256.Slices ![256, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S2048x1024_S2048 : S2048x1024.Reduces [1] S2048
  shapeCasts_S2048_S2048x1 : S2048.ShapeCasts S2048x1
  shapeCasts_S2048x1_S2048x1 : S2048x1.ShapeCasts S2048x1
  broadcasts_S2048x1_S2048x128 : S2048x1.Broadcasts S2048x128
  inb_S2048x128_S2048x1_0_0 : ∀ a, (![0, 0] : Fin 2 → Nat) a + S2048x1.size a ≤ S2048x128.size a
  h_S2048x1 : 0 < S2048x1.numel
  broadcasts_S2048x1_S2048x256 : S2048x1.Broadcasts S2048x256
  shapeCasts_S256x256_S256x256 : S256x256.ShapeCasts S256x256
  reducesTo_S8192x256_S_d0_1 : S8192x256.ReducesTo [0, 1] S_
  h_S_ : 0 < S_.numel
  bcast_S_S8192x256 : S_.BroadcastsInDim S8192x256 (![] : Fin 0 → Fin S8192x256.rank)
  bcast_S8192x256_S1x8192x256_1_2 : S8192x256.BroadcastsInDim S1x8192x256 (![1, 2] : Fin 2 → Fin S1x8192x256.rank)
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S8192x256.size a
  hwx2_5 : ∀ i : grid2.Coords, EltTy.bits .f32 = 32 ∨ (Rect.block (s := S8192x256) S2048x256.size (cc2_transform_5 i) (hinb2_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S1x1x256 : Shape := ⟨3, ![1, 1, 256]⟩
abbrev S_ : Shape := ⟨0, ![]⟩
abbrev S1x8192 : Shape := ⟨2, ![1, 8192]⟩
abbrev S1x8192x1 : Shape := ⟨3, ![1, 8192, 1]⟩
abbrev S1x8192x512 : Shape := ⟨3, ![1, 8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x8192x8192, .f32⟩
  | .hbm, ⟨1, _⟩ => ⟨S1x8192x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S1x8192x256, .f32⟩
  | .hbm, ⟨7, _⟩ => ⟨S1x1x256, .f32⟩
  | .hbm, ⟨8, _⟩ => ⟨S1x8192x256, .f32⟩
  | .hbm, ⟨9, _⟩ => ⟨S1x8192x256, .f32⟩
  | .hbm, ⟨10, _⟩ => ⟨S_, .f32⟩
  | .hbm, ⟨11, _⟩ => ⟨S1x8192x256, .f32⟩
  | .hbm, ⟨12, _⟩ => ⟨S1x8192x256, .f32⟩
  | .hbm, ⟨13, _⟩ => ⟨S1x8192x256, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x256, .f32⟩
  | .hbm, ⟨21, _⟩ => ⟨S1x8192x256, .f32⟩
  | .hbm, ⟨22, _⟩ => ⟨S1x8192x512, .f32⟩
  | .hbm, ⟨23, _⟩ => ⟨S1x8192x256, .f32⟩
  | .hbm, ⟨24, _⟩ => ⟨S1x1x256, .f32⟩
  | .hbm, ⟨25, _⟩ => ⟨S1x8192x256, .f32⟩
  | .hbm, ⟨26, _⟩ => ⟨S1x8192x256, .f32⟩
  | .hbm, ⟨27, _⟩ => ⟨S_, .f32⟩
  | .hbm, ⟨28, _⟩ => ⟨S1x8192x256, .f32⟩
  | .hbm, ⟨29, _⟩ => ⟨S1x8192x256, .f32⟩
  | .hbm, ⟨30, _⟩ => ⟨S_, .f32⟩
  | .hbm, ⟨31, _⟩ => ⟨S1x8192x256, .f32⟩
  | .hbm, ⟨32, _⟩ => ⟨S1x8192x256, .f32⟩
  | .hbm, ⟨33, _⟩ => ⟨S1x8192x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x8192x256, .f32⟩
  | .hbm, ⟨40, _⟩ => ⟨S1x8192x256, .f32⟩
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1x8192x256_0_1_2 : S1x1x256.BroadcastsInDim S1x8192x256 (![0, 1, 2] : Fin 3 → Fin S1x8192x256.rank)
  bcast_S_S1x8192x256 : S_.BroadcastsInDim S1x8192x256 (![] : Fin 0 → Fin S1x8192x256.rank)
  reducesTo_S1x8192x8192_S1x8192_d2 : S1x8192x8192.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x256_0_1_2 : S1x8192x1.BroadcastsInDim S1x8192x256 (![0, 1, 2] : Fin 3 → Fin S1x8192x256.rank)
  concatenates_S1x8192x256_S1x8192x256_S1x8192x512_d2 : Shape.Concatenates [S1x8192x256, S1x8192x256] S1x8192x512 2
  reducesTo_S1x8192x256_S_d0_1_2 : S1x8192x256.ReducesTo [0, 1, 2] S_
  dot_S1x8192x256_S256x256_S1x8192x256_2_0_01_1_n_n_wf : DotDims.WF S1x8192x256 S256x256 S1x8192x256 [2] [0] [0, 1] [1] [] []
  dot_S1x8192x8192_S1x8192x256_S1x8192x256_2_1_1_2_0_0_wf : DotDims.WF S1x8192x8192 S1x8192x256 S1x8192x256 [2] [1] [1] [2] [0] [0]
  dot_S1x8192x512_S512x256_S1x8192x256_2_0_01_1_n_n_wf : DotDims.WF S1x8192x512 S512x256 S1x8192x256 [2] [0] [0, 1] [1] [] []

variable [Facts₀]

def dot_S1x8192x256_S256x256_S1x8192x256_2_0_01_1_n_n : DotDims S1x8192x256 S256x256 S1x8192x256 where
  lhsContracting := [2]
  rhsContracting := [0]
  lhsNonContracting := [0, 1]
  rhsNonContracting := [1]
  lhsBatch := []
  rhsBatch := []
  wf := dot_S1x8192x256_S256x256_S1x8192x256_2_0_01_1_n_n_wf
def dot_S1x8192x8192_S1x8192x256_S1x8192x256_2_1_1_2_0_0 : DotDims S1x8192x8192 S1x8192x256 S1x8192x256 where
  lhsContracting := [2]
  rhsContracting := [1]
  lhsNonContracting := [1]
  rhsNonContracting := [2]
  lhsBatch := [0]
  rhsBatch := [0]
  wf := dot_S1x8192x8192_S1x8192x256_S1x8192x256_2_1_1_2_0_0_wf
def dot_S1x8192x512_S512x256_S1x8192x256_2_0_01_1_n_n : DotDims S1x8192x512 S512x256 S1x8192x256 where
  lhsContracting := [2]
  rhsContracting := [0]
  lhsNonContracting := [0, 1]
  rhsNonContracting := [1]
  lhsBatch := []
  rhsBatch := []
  wf := dot_S1x8192x512_S512x256_S1x8192x256_2_0_01_1_n_n_wf

class Facts : Prop extends Facts₀ where

variable [Facts]
-- ==== Proof.Kernel.Reg0.lean ====
/- REGION 0's frame half: the pallas_call whose body computes relu(X·W + b), stored as bf16, on a grid of 4 points.
   The body loads its three input windows whole, computes, and stores its one output window whole through one
   rectangle: no branch, no scratch, never idle. Stated at a PARAMETER V, the TensorCore's buffer
   contents when the region is entered, and generic in the float instance. -/
import proofs.«101960_j84868553769261_1_alg».proof.Proof.Gen.Kernel.Launch
import proofs.«101960_j84868553769261_1_alg».proof.Proof.Gen.Kernel.Skeleton
import proofs.«101960_j84868553769261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of X, a new block at every point) holds its block at every point, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block, fetched at the first point only) holds its block at every point:
    unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in the output window's buffer -/

/-- Window 3's staging buffer after the body, from the input windows' blocks: its one store as one piece, the
    payload relu(X·W + b) rounded to bf16 over the three inputs read whole. -/
def out0_3 (x0 : Vec F S2048x256 .f32) (x1 : Vec F S256x256 .f32) (x2 : Vec F S1x256 .f32) : Vec F S2048x256 .bf16 :=
  View.canon [⟨r0_0, k0_pay1 (View.ld x0 r0_0) (View.ld x1 r0_1) (View.ld x2 r0_2)⟩]

/-- The one store tiles the buffer (checked by evaluation), so it covers it. -/
theorem cover0_3 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents x0, x1, x2 and the output's at anything,
    runs to the continuation holding the inputs' as they were and the output's at out0_3 of the inputs'. -/
theorem sound_kernel0 (c : Dev nD) (E : Set ℕ) (i : grid0.Coords)
    (arg0 : Memref sig .tc .vmem S2048x256 .f32) (harg0 : arg0.IsWhole)
    (arg1 : Memref sig .tc .vmem S256x256 .f32) (harg1 : arg1.IsWhole)
    (arg2 : Memref sig .tc .vmem S1x256 .f32) (harg2 : arg2.IsWhole)
    (arg3 : Memref sig .tc .vmem S2048x256 .bf16) (harg3 : arg3.IsWhole)
    (x0 : Vec F S2048x256 .f32) (x1 : Vec F S256x256 .f32) (x2 : Vec F S1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__h_kernel i arg0 harg0 arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1Runs.lean ====
import proofs.«101960_j84868553769261_1_alg».proof.Proof.Gen.Kernel.Launch
import proofs.«101960_j84868553769261_1_alg».proof.Proof.Gen.Kernel.Skeleton
import proofs.«101960_j84868553769261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: the pooling call (pipeline 1), at the entry contents `V`

The grid is 4 row blocks by 8 column blocks, the column axis innermost. At point `(i, j)` the body adds the
product of the `(i, j)` block of the first operand (rounded to bf16) with the `j`-th row block of the second into a
product accumulator, and the row sums of the `(i, j)` block into a row-sum accumulator; both accumulators are scoped
buffers of the kernel's own that the pipeline does not stage, zeroed at `j = 0`; at `j = 7` the product accumulator
divided by (first column of the row sums + ε) is stored into the output window. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8): decided over the 32 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the closing branch: the inner coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the points of case A the output window is idle (nothing is stored into it) and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same at the points of case B. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the points of case C the output window is live: the quotient is stored into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (a covering list of writes
    reads back the same through any view). -/
abbrev VO1_2 : View sig .tc .vmem S2048x256 .f32 := (Memref.whole cc1_stg2_0 : Memref sig .tc .vmem S2048x256 .f32).view
/-- Each window's current staging memref at point `t`, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The two accumulators: whole scoped buffers, passed beside the windows; and as views. -/
abbrev scM1_0 : Memref sig .tc .vmem S2048x256 .f32 := Memref.whole cc1_scratch0
abbrev scM1_1 : Memref sig .tc .vmem S2048x128 .f32 := Memref.whole cc1_scratch1
abbrev VS1_0 : View sig .tc .vmem S2048x256 .f32 := scM1_0.view
abbrev VS1_1 : View sig .tc .vmem S2048x128 .f32 := scM1_1.view

/-! ## The scoped rest around the two accumulators -/

/-- The core's scoped buffers that are no staging buffer of this call, in the listed order: the other two calls'
    staging buffers each whole at some contents, and the two accumulators' conjuncts `P0`, `P1` in their places. -/
def scoped1 (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class's invariant with the two accumulators as memrefs owned at some contents: what the body is handed at the
    first point of a row block (it overwrites both before reading) and what the region gives back. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) ∗ (∃ r, prngReg c r)) := by
  unfold Pipeline.ΦA scoped1; rw [scopedRest1_eq]; simp only [scM1_0, scM1_1, owns_whole]; try rfl

/-! ## The kernel body on any memrefs, case by case -/

set_option maxHeartbeats 1000000 in
/-- CASE A (inner coordinate 0: the reset branch taken, the closing branch not). The pieces the body's stores leave
    in the output window's staging memref (none: it is idle here), in the product accumulator and in the row-sum
    accumulator, last first, WITH the triple: on whole memrefs, the two input blocks at their contents, the idle
    output's buffer at contents handed back untouched, both accumulators at anything (each is overwritten whole with
    zeros before it is read), the body runs to a continuation holding the inputs as they were and each accumulator
    with its pieces written. The piece lists are the witness the symbolic run finds. -/
noncomputable def kernelRun1_A (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) :
    Σ' (L2 : List (View.Piece (Elt F) S2048x256 .f32)) (LS0 : List (View.Piece (Elt F) S2048x256 .f32)), { LS1 : List (View.Piece (Elt F) S2048x128 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨[], ?_, ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- CASE B (inner coordinate strictly between 0 and 7: neither branch taken). As case A, but the accumulators are
    read before they are stored: they enter at the contents the point before left (`xs0`, `xs1`), and the pieces
    found are the one whole store into each (the partial product, resp. the row sums, added to those contents). -/
noncomputable def kernelRun1_B (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) :
    Σ' (L2 : List (View.Piece (Elt F) S2048x256 .f32)) (LS0 : List (View.Piece (Elt F) S2048x256 .f32)), { LS1 : List (View.Piece (Elt F) S2048x128 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨[], ?_, ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- CASE C (inner coordinate 7: the closing branch taken, the reset branch not). The accumulators enter at what the
    point before left and are stored as in case B; then the first column of the row-sum accumulator and the whole
    product accumulator are loaded and the quotient is stored over the output window's staging memref, which enters at
    anything and leaves with its pieces written. -/
noncomputable def kernelRun1_C (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) :
    Σ' (L2 : List (View.Piece (Elt F) S2048x256 .f32)) (LS0 : List (View.Piece (Elt F) S2048x256 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨?_, ?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.Kernel.Reg1.lean ====
import proofs.«101960_j84868553769261_1_alg».proof.Proof.Kernel.Reg1Runs

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves: covers and read-backs -/

/-- Case A stores nothing into the output window (idle at its points, not written back there): no pieces; a
    placeholder, junk read back, that nothing consults. -/
def out1_A_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x256 .f32 :=
  VO1_2.read (Elt F) (VO1_2.writes (Elt F) VO1_2.junk (kernelRun1_A c i arg2 harg2 arg3 harg3 arg4 harg4 arg5 harg5 arg6 harg6 hc0 hc1 x0 x1).1)

/-- Case A's pieces for the product accumulator cover it (whole stores of its shape). -/
theorem scover1_A_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) (y : S2048x256.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x256.size (by sl_kernel_rfl) y

/-- What case A leaves in the product accumulator: its pieces read back over junk. -/
def sout1_A_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x256 .f32 :=
  VS1_0.read (Elt F) (VS1_0.writes (Elt F) VS1_0.junk (kernelRun1_A c i arg2 harg2 arg3 harg3 arg4 harg4 arg5 harg5 arg6 harg6 hc0 hc1 x0 x1).2.1)

/-- Case A's pieces for the row-sum accumulator cover it. -/
theorem scover1_A_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) (y : S2048x128.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x128.size (by sl_kernel_rfl) y

/-- What case A leaves in the row-sum accumulator: its pieces read back over junk. -/
def sout1_A_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x128 .f32 :=
  VS1_1.read (Elt F) (VS1_1.writes (Elt F) VS1_1.junk (kernelRun1_A c i arg2 harg2 arg3 harg3 arg4 harg4 arg5 harg5 arg6 harg6 hc0 hc1 x0 x1).2.2.1)

/-- Case B stores nothing into the output window (idle at its points, not written back there): no pieces; a
    placeholder, junk read back, that nothing consults. -/
def out1_B_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x256 .f32 :=
  VO1_2.read (Elt F) (VO1_2.writes (Elt F) VO1_2.junk (kernelRun1_B c i arg2 harg2 arg3 harg3 arg4 harg4 arg5 harg5 arg6 harg6 hc0 hc1 x0 x1 xs0 xs1).1)

/-- Case B's pieces for the product accumulator cover it (whole stores of its shape). -/
theorem scover1_B_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) (y : S2048x256.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x256.size (by sl_kernel_rfl) y

/-- What case B leaves in the product accumulator: its pieces read back over junk. -/
def sout1_B_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 xs0 xs1).2.1)

/-- Case B's pieces for the row-sum accumulator cover it. -/
theorem scover1_B_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) (y : S2048x128.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x128.size (by sl_kernel_rfl) y

/-- What case B leaves in the row-sum accumulator: its pieces read back over junk. -/
def sout1_B_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x128 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- Case C's pieces for the output window tile its block (the one whole store of the quotient), so they cover it. -/
theorem cover1_C_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x256.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x256.size (by sl_kernel_rfl) y

/-- What case C leaves in the output window's staging buffer: its pieces read back over junk. -/
def out1_C_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x256 .f32 :=
  VO1_2.read (Elt F) (VO1_2.writes (Elt F) VO1_2.junk (kernelRun1_C c i arg2 harg2 arg3 harg3 arg4 harg4 arg5 harg5 arg6 harg6 hc0 hc1 x0 x1 xs0 xs1).1)

/-- Case C's pieces for the product accumulator cover it (whole stores of its shape). -/
theorem scover1_C_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x256.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x256.size (by sl_kernel_rfl) y

/-- What case C leaves in the product accumulator: its pieces read back over junk. -/
def sout1_C_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-- Case C's pieces for the row-sum accumulator cover it. -/
theorem scover1_C_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x128.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x128.size (by sl_kernel_rfl) y

/-- What case C leaves in the row-sum accumulator: its pieces read back over junk. -/
def sout1_C_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x128 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-! ## What the output window's buffer and the two accumulators hold after each point -/

/-- THE ACCUMULATION. After the body at position `n`: (the output window's staging buffer, the product accumulator, the
    row-sum accumulator). The case the closed forms select at `n` (by `n % 8`), run at the point's memrefs and input
    blocks; in cases B and C the accumulators enter at what position `n - 1` left (they are scoped buffers no transfer
    touches between points). Inner coordinate 0 and 7 at once is no case. -/
def outsAt1 (c : Dev nD) : (n : ℕ) → n < cfg1.N → Vec F S2048x256 .f32 × Vec F S2048x256 .f32 × Vec F S2048x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left in the accumulators. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulators. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer outside this call's
    staging at anything, the generator register at some state); afterwards the same with the two accumulators at
    what the point before left in them (`outsAt1`'s second and third components). -/
def PhiS1 (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(scoped1 c (owns (c : Thread nD τ) scM1_0 fullShare (outsAt1 V c n hn).2.1) (owns (c : Thread nD τ) scM1_1 fullShare (outsAt1 V c n hn).2.2) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(scoped1 c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output window's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the inner coordinate says which case the point is in;
    the invariant hands the body the two accumulators at what the point before left (at anything at the first point of
    the grid, and case A needs no more at the first point of any row block, since it zeroes both before reading), the
    other scoped buffers and the generator register untouched, and takes the accumulators back at this point's
    contents, each case's pieces covering the accumulator. The output window is handed back untouched where it is
    idle and at the quotient's pieces read back where it is stored. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            isplitl [HS1]
            · unfold owns; iexists _; isplitr
              swap; · iexact HS1
              ipureintro; exact View.read_writes_of_cover _ _ _ _ _ (scover1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            iexact HT
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            isplitl [HS1]
            · unfold owns; iexists _; isplitr
              swap; · iexact HS1
              ipureintro; exact View.read_writes_of_cover _ _ _ _ _ (scover1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            iexact HT
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      by_cases hz : t.val = 0
      · exfalso; omega
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            iexact HT
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            iexact HT
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨A1, A2, A3, A4, A5, A6, HS0, HS1, HT⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    isplitl [HS1]; · iexists _; iexact HS1
    iexact HT
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.Kernel.Reg2.lean ====
/- REGION 2 of @main, the last TensorCore call: out = max(X·W1 + P·W2 + b, 0) + ε on a grid of 4 row blocks.
   Its frame half at a PARAMETER V, the TensorCore's buffer contents when the region is entered: each window's
   block at a point, the output buffer after the body as the one store's payload over the input blocks, the
   body's triple, the proof data and the body obligation. The body loads its five input buffers whole, computes,
   and stores its output buffer whole through one rectangle; it keeps nothing from point to point. -/
import proofs.«101960_j84868553769261_1_alg».proof.Proof.Gen.Kernel.Launch
import proofs.«101960_j84868553769261_1_alg».proof.Proof.Gen.Kernel.Skeleton
import proofs.«101960_j84868553769261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 x 256 extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a row block of X, fetched at every point) holds its block at every point, for any proof data
    whose array is `V`'s and whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (a row block of the pooled rows, fetched at every point): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 (the whole of W1, fetched at the first point only): its block index never moves, so the buffer
    holds the block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 (the whole of W2, fetched at the first point only): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 (the bias row, fetched at the first point only): the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through the rectangle that is the whole of it -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What the body leaves in the output window's buffer -/

/-- Window 5's staging buffer after the body, from the input windows' blocks: its one store, of the payload
    max(x0·x2 + x1·x3 + x4, 0) + ε over the five loads, each through the whole of its buffer. -/
def out2_5 (x0 : Vec F S2048x256 .f32) (x1 : Vec F S2048x256 .f32) (x2 : Vec F S256x256 .f32) (x3 : Vec F S256x256 .f32) (x4 : Vec F S1x256 .f32) : Vec F S2048x256 .f32 :=
  View.canon [⟨r2_0, k2_pay1 (View.ld x0 r2_0) (View.ld x1 r2_0) (View.ld x2 r2_1) (View.ld x3 r2_1) (View.ld x4 r2_2)⟩]

set_option maxHeartbeats 1000000 in
/-- The one store's rectangle is the whole buffer (its extent is the shape's), so it covers it. -/
theorem cover2_5 (p0 : Vec F S2048x256 .f32) (y : S2048x256.Idx) :
    ∃ pc ∈ ([⟨r2_0, p0⟩] : List (View.Piece (Elt F) S2048x256 .f32)), y ∈ pc.1.set :=
  View.cover_of_tiled [⟨r2_0, p0⟩] S2048x256.size (by rfl) y

/-! ## The body's triple -/

set_option maxHeartbeats 1000000 in
/-- The kernel body on whole staging memrefs, the five inputs' at read contents `xW` and the output's at anything,
    runs to the continuation holding the inputs' as they were and the output's at `out2_5` of the inputs: five loads,
    one load of the output buffer whose value nothing reads, one store over the whole output buffer. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2048x256 .f32) (harg6 : arg6.IsWhole)
    (x0 : Vec F S2048x256 .f32) (x1 : Vec F S2048x256 .f32) (x2 : Vec F S256x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__fc_kernel i arg1 harg1 arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/- THE RUN of the three-call program, and its frame.

   @main is a host prefix (four reshapes and the two halves of the second layer's weight matrix), three pallas_calls
   (the rectified first layer h; the adjacency-weighted pooling of h with its regularised row sums; the second layer on
   the node features and the pooled features) and a host tail (division by the regularised Euclidean norm of the whole
   array). The buffers' contents are folded from the launch memory through these five items; each call is entered from
   the fold before it and leaves its arrays at what its write-backs produce. The run's post says every unscoped buffer
   ends at the last fold, from which the frame (every argument as launched) and the result's contents are read. Generic
   in the float instance. -/
import proofs.«101960_j84868553769261_1_alg».proof.Proof.Kernel.Reg0
import proofs.«101960_j84868553769261_1_alg».proof.Proof.Kernel.Reg1
import proofs.«101960_j84868553769261_1_alg».proof.Proof.Kernel.Reg2
import proofs.«101960_j84868553769261_1_alg».proof.Proof.Gen.Kernel.Launch
import proofs.«101960_j84868553769261_1_alg».proof.Proof.Gen.Kernel.Skeleton
import proofs.«101960_j84868553769261_1_alg».proof.Proof.Gen.Kernel.Points
import proofs.«101960_j84868553769261_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main

At launch core c's buffers hold the memory m; the six host operations before the first call (four reshapes and the
two halves of the second weight matrix) are folded over it; each call then leaves its arrays at what its write-backs
produce and every other buffer as it found it; the nine host operations after the last call are folded at the end. -/

/-- Entry of the first call: the launch contents after the host prefix, read at a TensorCore reference. -/
abbrev E1 : (c : Dev nD) → (b : Ref sig .tc) → Buf (Elt F) ((c : Thread nD τ).loc b) := fun c b => V1 m c b

/-- After the first call: its arrays at what its pipeline leaves, everything else as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call (no host operation stands between the calls). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the third call. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- At the return: the host tail (the square, its total, the root, the regulariser, the quotient, the leading unit
    axis) folded over what the third call left. -/
abbrev W5 (c : Dev nD) : Valuation τ sig (Elt F) := StableHlo.after hostOps3 (W4 m c)

theorem W5_of (c : Dev nD) (r : Ref sig .tc) (h : r ∉ hostOps3_W) : W5 m c r = W4 m c r :=
  StableHlo.after_of_writes_sub hostOps3 _ hostOps3_writes h

/-! ### No call and no host operation writes an argument

Five arguments bypass every call (the calls read reshaped or sliced copies of them); the first layer's weight
matrix is an input window of the first call, which hands an input array back as it found it. -/

theorem W5_bypass (c : Dev nD) (r : Ref sig .tc) (h3 : r ∉ hostOps3_W) (h2 : ∀ w, Pipeline.arrRef spec2 w ≠ r)
    (h1 : ∀ w, Pipeline.arrRef spec1 w ≠ r) (h0 : ∀ w, Pipeline.arrRef spec0 w ≠ r) (hh : r ∉ hostOps0_W) :
    W5 m c r = m ((c : Thread nD τ).loc r) :=
  (W5_of m c r h3).trans <| (W4_of_ne m c r h2).trans <| (W3_of_ne m c r h1).trans <| (W2_of_ne m c r h0).trans <|
    (V1_of m c r hh).trans rfl

theorem W5_main_arg0 (c : Dev nD) : W5 m c main_arg0 = m ((c : Thread nD τ).loc main_arg0) :=
  W5_bypass m c main_arg0 (by decide) (by decide) (by decide) (by decide) (by decide)
theorem W5_main_arg1 (c : Dev nD) : W5 m c main_arg1 = m ((c : Thread nD τ).loc main_arg1) :=
  W5_bypass m c main_arg1 (by decide) (by decide) (by decide) (by decide) (by decide)
theorem W5_main_arg2 (c : Dev nD) : W5 m c main_arg2 = m ((c : Thread nD τ).loc main_arg2) :=
  (W5_of m c main_arg2 (by decide)).trans <| (W4_of_ne m c main_arg2 (by decide)).trans <|
    (W3_of_ne m c main_arg2 (by decide)).trans <|
    ((W2_arr m c 1).trans (((dat0 (E1 m) c).arrAt_in 1 rfl _).trans (A_eq0 (E1 m) c 1))).trans <|
    (V1_of m c main_arg2 (by decide)).trans rfl
theorem W5_main_arg3 (c : Dev nD) : W5 m c main_arg3 = m ((c : Thread nD τ).loc main_arg3) :=
  W5_bypass m c main_arg3 (by decide) (by decide) (by decide) (by decide) (by decide)
theorem W5_main_arg4 (c : Dev nD) : W5 m c main_arg4 = m ((c : Thread nD τ).loc main_arg4) :=
  W5_bypass m c main_arg4 (by decide) (by decide) (by decide) (by decide) (by decide)
theorem W5_main_arg5 (c : Dev nD) : W5 m c main_arg5 = m ((c : Thread nD τ).loc main_arg5) :=
  W5_bypass m c main_arg5 (by decide) (by decide) (by decide) (by decide) (by decide)

/-! ## The proof data of the three calls, and what rides beside the buffers -/

/-- Each call's proof data at the contents its call is entered from. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers every boundary holds the generator register at some state and the core owing nothing. -/
abbrev Rr (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the owed tallies. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- Call 0 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := hin1 (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := hout1 (E2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order: the host prefix, the three calls, the host tail. -/
abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m),
    .host (hseg hostOps3 hostOps3_sub hostOps3_fresh (W4 m)) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and in every final state every unscoped buffer of core c holds the last
    fold's contents: the arguments as launched, the result at the host tail of what the third call left. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := ⟨fun _ => .rfl, fun _ => .rfl, fun _ => .rfl, fun _ => .rfl, fun _ => .rfl, fun c =>
      (show (iprop(StableHlo.held (c : Thread nD τ) (Pipeline.ucRefs τ sig) (W5 m c) ∗ Rr c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- THE RUN WITH ITS RESULT: the result buffer ends at the last fold's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v15) = W5 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v15 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KernelIdeal.Reg0.lean ====
/- REGION 0's frame half: the pallas_call whose body computes relu(X·W + b), stored as bf16, on a grid of 4 points.
   The body loads its three input windows whole, computes, and stores its one output window whole through one
   rectangle: no branch, no scratch, never idle. Stated at a PARAMETER V, the TensorCore's buffer
   contents when the region is entered, and generic in the float instance. -/
import proofs.«101960_j84868553769261_1_alg».proof.Proof.Gen.KernelIdeal.Launch
import proofs.«101960_j84868553769261_1_alg».proof.Proof.Gen.KernelIdeal.Skeleton
import proofs.«101960_j84868553769261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of X, a new block at every point) holds its block at every point, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block, fetched at the first point only) holds its block at every point:
    unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in the output window's buffer -/

/-- Window 3's staging buffer after the body, from the input windows' blocks: its one store as one piece, the
    payload relu(X·W + b) rounded to bf16 over the three inputs read whole. -/
def out0_3 (x0 : Vec F S2048x256 .f32) (x1 : Vec F S256x256 .f32) (x2 : Vec F S1x256 .f32) : Vec F S2048x256 .bf16 :=
  View.canon [⟨r0_0, k0_pay1 (View.ld x0 r0_0) (View.ld x1 r0_1) (View.ld x2 r0_2)⟩]

/-- The one store tiles the buffer (checked by evaluation), so it covers it. -/
theorem cover0_3 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents x0, x1, x2 and the output's at anything,
    runs to the continuation holding the inputs' as they were and the output's at out0_3 of the inputs'. -/
theorem sound_kernel0 (c : Dev nD) (E : Set ℕ) (i : grid0.Coords)
    (arg0 : Memref sig .tc .vmem S2048x256 .f32) (harg0 : arg0.IsWhole)
    (arg1 : Memref sig .tc .vmem S256x256 .f32) (harg1 : arg1.IsWhole)
    (arg2 : Memref sig .tc .vmem S1x256 .f32) (harg2 : arg2.IsWhole)
    (arg3 : Memref sig .tc .vmem S2048x256 .bf16) (harg3 : arg3.IsWhole)
    (x0 : Vec F S2048x256 .f32) (x1 : Vec F S256x256 .f32) (x2 : Vec F S1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__h_kernel i arg0 harg0 arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1Runs.lean ====
import proofs.«101960_j84868553769261_1_alg».proof.Proof.Gen.KernelIdeal.Launch
import proofs.«101960_j84868553769261_1_alg».proof.Proof.Gen.KernelIdeal.Skeleton
import proofs.«101960_j84868553769261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: the pooling call (pipeline 1), at the entry contents `V`

The grid is 4 row blocks by 8 column blocks, the column axis innermost. At point `(i, j)` the body adds the
product of the `(i, j)` block of the first operand (rounded to bf16) with the `j`-th row block of the second into a
product accumulator, and the row sums of the `(i, j)` block into a row-sum accumulator; both accumulators are scoped
buffers of the kernel's own that the pipeline does not stage, zeroed at `j = 0`; at `j = 7` the product accumulator
divided by (first column of the row sums + ε) is stored into the output window. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8): decided over the 32 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the closing branch: the inner coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the points of case A the output window is idle (nothing is stored into it) and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same at the points of case B. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the points of case C the output window is live: the quotient is stored into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (a covering list of writes
    reads back the same through any view). -/
abbrev VO1_2 : View sig .tc .vmem S2048x256 .f32 := (Memref.whole cc1_stg2_0 : Memref sig .tc .vmem S2048x256 .f32).view
/-- Each window's current staging memref at point `t`, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The two accumulators: whole scoped buffers, passed beside the windows; and as views. -/
abbrev scM1_0 : Memref sig .tc .vmem S2048x256 .f32 := Memref.whole cc1_scratch0
abbrev scM1_1 : Memref sig .tc .vmem S2048x128 .f32 := Memref.whole cc1_scratch1
abbrev VS1_0 : View sig .tc .vmem S2048x256 .f32 := scM1_0.view
abbrev VS1_1 : View sig .tc .vmem S2048x128 .f32 := scM1_1.view

/-! ## The scoped rest around the two accumulators -/

/-- The core's scoped buffers that are no staging buffer of this call, in the listed order: the other two calls'
    staging buffers each whole at some contents, and the two accumulators' conjuncts `P0`, `P1` in their places. -/
def scoped1 (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class's invariant with the two accumulators as memrefs owned at some contents: what the body is handed at the
    first point of a row block (it overwrites both before reading) and what the region gives back. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) ∗ (∃ r, prngReg c r)) := by
  unfold Pipeline.ΦA scoped1; rw [scopedRest1_eq]; simp only [scM1_0, scM1_1, owns_whole]; try rfl

/-! ## The kernel body on any memrefs, case by case -/

set_option maxHeartbeats 1000000 in
/-- CASE A (inner coordinate 0: the reset branch taken, the closing branch not). The pieces the body's stores leave
    in the output window's staging memref (none: it is idle here), in the product accumulator and in the row-sum
    accumulator, last first, WITH the triple: on whole memrefs, the two input blocks at their contents, the idle
    output's buffer at contents handed back untouched, both accumulators at anything (each is overwritten whole with
    zeros before it is read), the body runs to a continuation holding the inputs as they were and each accumulator
    with its pieces written. The piece lists are the witness the symbolic run finds. -/
noncomputable def kernelRun1_A (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) :
    Σ' (L2 : List (View.Piece (Elt F) S2048x256 .f32)) (LS0 : List (View.Piece (Elt F) S2048x256 .f32)), { LS1 : List (View.Piece (Elt F) S2048x128 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨[], ?_, ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- CASE B (inner coordinate strictly between 0 and 7: neither branch taken). As case A, but the accumulators are
    read before they are stored: they enter at the contents the point before left (`xs0`, `xs1`), and the pieces
    found are the one whole store into each (the partial product, resp. the row sums, added to those contents). -/
noncomputable def kernelRun1_B (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) :
    Σ' (L2 : List (View.Piece (Elt F) S2048x256 .f32)) (LS0 : List (View.Piece (Elt F) S2048x256 .f32)), { LS1 : List (View.Piece (Elt F) S2048x128 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨[], ?_, ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- CASE C (inner coordinate 7: the closing branch taken, the reset branch not). The accumulators enter at what the
    point before left and are stored as in case B; then the first column of the row-sum accumulator and the whole
    product accumulator are loaded and the quotient is stored over the output window's staging memref, which enters at
    anything and leaves with its pieces written. -/
noncomputable def kernelRun1_C (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) :
    Σ' (L2 : List (View.Piece (Elt F) S2048x256 .f32)) (LS0 : List (View.Piece (Elt F) S2048x256 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__pool_kernel i arg2 harg2 arg3 harg3 arg4 harg4 arg5 harg5 arg6 harg6) K } := by
  refine ⟨?_, ?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KernelIdeal.Reg1.lean ====
import proofs.«101960_j84868553769261_1_alg».proof.Proof.KernelIdeal.Reg1Runs

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves: covers and read-backs -/

/-- Case A stores nothing into the output window (idle at its points, not written back there): no pieces; a
    placeholder, junk read back, that nothing consults. -/
def out1_A_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x256 .f32 :=
  VO1_2.read (Elt F) (VO1_2.writes (Elt F) VO1_2.junk (kernelRun1_A c i arg2 harg2 arg3 harg3 arg4 harg4 arg5 harg5 arg6 harg6 hc0 hc1 x0 x1).1)

/-- Case A's pieces for the product accumulator cover it (whole stores of its shape). -/
theorem scover1_A_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) (y : S2048x256.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x256.size (by sl_kernel_rfl) y

/-- What case A leaves in the product accumulator: its pieces read back over junk. -/
def sout1_A_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x256 .f32 :=
  VS1_0.read (Elt F) (VS1_0.writes (Elt F) VS1_0.junk (kernelRun1_A c i arg2 harg2 arg3 harg3 arg4 harg4 arg5 harg5 arg6 harg6 hc0 hc1 x0 x1).2.1)

/-- Case A's pieces for the row-sum accumulator cover it. -/
theorem scover1_A_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) (y : S2048x128.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x128.size (by sl_kernel_rfl) y

/-- What case A leaves in the row-sum accumulator: its pieces read back over junk. -/
def sout1_A_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) : Vec F S2048x128 .f32 :=
  VS1_1.read (Elt F) (VS1_1.writes (Elt F) VS1_1.junk (kernelRun1_A c i arg2 harg2 arg3 harg3 arg4 harg4 arg5 harg5 arg6 harg6 hc0 hc1 x0 x1).2.2.1)

/-- Case B stores nothing into the output window (idle at its points, not written back there): no pieces; a
    placeholder, junk read back, that nothing consults. -/
def out1_B_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x256 .f32 :=
  VO1_2.read (Elt F) (VO1_2.writes (Elt F) VO1_2.junk (kernelRun1_B c i arg2 harg2 arg3 harg3 arg4 harg4 arg5 harg5 arg6 harg6 hc0 hc1 x0 x1 xs0 xs1).1)

/-- Case B's pieces for the product accumulator cover it (whole stores of its shape). -/
theorem scover1_B_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) (y : S2048x256.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x256.size (by sl_kernel_rfl) y

/-- What case B leaves in the product accumulator: its pieces read back over junk. -/
def sout1_B_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 xs0 xs1).2.1)

/-- Case B's pieces for the row-sum accumulator cover it. -/
theorem scover1_B_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) (y : S2048x128.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x128.size (by sl_kernel_rfl) y

/-- What case B leaves in the row-sum accumulator: its pieces read back over junk. -/
def sout1_B_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) : Vec F S2048x128 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- Case C's pieces for the output window tile its block (the one whole store of the quotient), so they cover it. -/
theorem cover1_C_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x256.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x256.size (by sl_kernel_rfl) y

/-- What case C leaves in the output window's staging buffer: its pieces read back over junk. -/
def out1_C_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x256 .f32 :=
  VO1_2.read (Elt F) (VO1_2.writes (Elt F) VO1_2.junk (kernelRun1_C c i arg2 harg2 arg3 harg3 arg4 harg4 arg5 harg5 arg6 harg6 hc0 hc1 x0 x1 xs0 xs1).1)

/-- Case C's pieces for the product accumulator cover it (whole stores of its shape). -/
theorem scover1_C_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x256.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x256.size (by sl_kernel_rfl) y

/-- What case C leaves in the product accumulator: its pieces read back over junk. -/
def sout1_C_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-- Case C's pieces for the row-sum accumulator cover it. -/
theorem scover1_C_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) (y : S2048x128.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x128.size (by sl_kernel_rfl) y

/-- What case C leaves in the row-sum accumulator: its pieces read back over junk. -/
def sout1_C_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) : Vec F S2048x128 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-! ## What the output window's buffer and the two accumulators hold after each point -/

/-- THE ACCUMULATION. After the body at position `n`: (the output window's staging buffer, the product accumulator, the
    row-sum accumulator). The case the closed forms select at `n` (by `n % 8`), run at the point's memrefs and input
    blocks; in cases B and C the accumulators enter at what position `n - 1` left (they are scoped buffers no transfer
    touches between points). Inner coordinate 0 and 7 at once is no case. -/
def outsAt1 (c : Dev nD) : (n : ℕ) → n < cfg1.N → Vec F S2048x256 .f32 × Vec F S2048x256 .f32 × Vec F S2048x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left in the accumulators. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulators. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer outside this call's
    staging at anything, the generator register at some state); afterwards the same with the two accumulators at
    what the point before left in them (`outsAt1`'s second and third components). -/
def PhiS1 (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(scoped1 c (owns (c : Thread nD τ) scM1_0 fullShare (outsAt1 V c n hn).2.1) (owns (c : Thread nD τ) scM1_1 fullShare (outsAt1 V c n hn).2.2) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(scoped1 c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output window's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the inner coordinate says which case the point is in;
    the invariant hands the body the two accumulators at what the point before left (at anything at the first point of
    the grid, and case A needs no more at the first point of any row block, since it zeroes both before reading), the
    other scoped buffers and the generator register untouched, and takes the accumulators back at this point's
    contents, each case's pieces covering the accumulator. The output window is handed back untouched where it is
    idle and at the quotient's pieces read back where it is stored. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            isplitl [HS1]
            · unfold owns; iexists _; isplitr
              swap; · iexact HS1
              ipureintro; exact View.read_writes_of_cover _ _ _ _ _ (scover1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            iexact HT
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            isplitl [HS1]
            · unfold owns; iexists _; isplitr
              swap; · iexact HS1
              ipureintro; exact View.read_writes_of_cover _ _ _ _ _ (scover1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t))
            iexact HT
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      by_cases hz : t.val = 0
      · exfalso; omega
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            iexact HT
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        unfold scoped1
        iintro ⟨⟨⟨A1, A2, A3, A4, A5, A6, HS0, HS1, HT⟩, Hg⟩, Ho, ⟨%d0, H0⟩, ⟨%d1, H1⟩, ⟨%d2, H2⟩⟩
        iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [A1 A2 A3 A4 A5 A6 HS0 HS1 HT Hg]
        · isplitr [Hg]
          · isplitl [A1]; · iexact A1
            isplitl [A2]; · iexact A2
            isplitl [A3]; · iexact A3
            isplitl [A4]; · iexact A4
            isplitl [A5]; · iexact A5
            isplitl [A6]; · iexact A6
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
            iexact HT
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨A1, A2, A3, A4, A5, A6, HS0, HS1, HT⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    isplitl [HS1]; · iexists _; iexact HS1
    iexact HT
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KernelIdeal.Reg2.lean ====
/- REGION 2 of @main, the last TensorCore call: out = max(X·W1 + P·W2 + b, 0) + ε on a grid of 4 row blocks.
   Its frame half at a PARAMETER V, the TensorCore's buffer contents when the region is entered: each window's
   block at a point, the output buffer after the body as the one store's payload over the input blocks, the
   body's triple, the proof data and the body obligation. The body loads its five input buffers whole, computes,
   and stores its output buffer whole through one rectangle; it keeps nothing from point to point. -/
import proofs.«101960_j84868553769261_1_alg».proof.Proof.Gen.KernelIdeal.Launch
import proofs.«101960_j84868553769261_1_alg».proof.Proof.Gen.KernelIdeal.Skeleton
import proofs.«101960_j84868553769261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 x 256 extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a row block of X, fetched at every point) holds its block at every point, for any proof data
    whose array is `V`'s and whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (a row block of the pooled rows, fetched at every point): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 (the whole of W1, fetched at the first point only): its block index never moves, so the buffer
    holds the block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 (the whole of W2, fetched at the first point only): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 (the bias row, fetched at the first point only): the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through the rectangle that is the whole of it -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What the body leaves in the output window's buffer -/

/-- Window 5's staging buffer after the body, from the input windows' blocks: its one store, of the payload
    max(x0·x2 + x1·x3 + x4, 0) + ε over the five loads, each through the whole of its buffer. -/
def out2_5 (x0 : Vec F S2048x256 .f32) (x1 : Vec F S2048x256 .f32) (x2 : Vec F S256x256 .f32) (x3 : Vec F S256x256 .f32) (x4 : Vec F S1x256 .f32) : Vec F S2048x256 .f32 :=
  View.canon [⟨r2_0, k2_pay1 (View.ld x0 r2_0) (View.ld x1 r2_0) (View.ld x2 r2_1) (View.ld x3 r2_1) (View.ld x4 r2_2)⟩]

set_option maxHeartbeats 1000000 in
/-- The one store's rectangle is the whole buffer (its extent is the shape's), so it covers it. -/
theorem cover2_5 (p0 : Vec F S2048x256 .f32) (y : S2048x256.Idx) :
    ∃ pc ∈ ([⟨r2_0, p0⟩] : List (View.Piece (Elt F) S2048x256 .f32)), y ∈ pc.1.set :=
  View.cover_of_tiled [⟨r2_0, p0⟩] S2048x256.size (by rfl) y

/-! ## The body's triple -/

set_option maxHeartbeats 1000000 in
/-- The kernel body on whole staging memrefs, the five inputs' at read contents `xW` and the output's at anything,
    runs to the continuation holding the inputs' as they were and the output's at `out2_5` of the inputs: five loads,
    one load of the output buffer whose value nothing reads, one store over the whole output buffer. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2048x256 .f32) (harg6 : arg6.IsWhole)
    (x0 : Vec F S2048x256 .f32) (x1 : Vec F S2048x256 .f32) (x2 : Vec F S256x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__fc_kernel i arg1 harg1 arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/- THE RUN of the three-call program, and its frame.

   @main is a host prefix (four reshapes and the two halves of the second layer's weight matrix), three pallas_calls
   (the rectified first layer h; the adjacency-weighted pooling of h with its regularised row sums; the second layer on
   the node features and the pooled features) and a host tail (division by the regularised Euclidean norm of the whole
   array). The buffers' contents are folded from the launch memory through these five items; each call is entered from
   the fold before it and leaves its arrays at what its write-backs produce. The run's post says every unscoped buffer
   ends at the last fold, from which the frame (every argument as launched) and the result's contents are read. Generic
   in the float instance. -/
import proofs.«101960_j84868553769261_1_alg».proof.Proof.KernelIdeal.Reg0
import proofs.«101960_j84868553769261_1_alg».proof.Proof.KernelIdeal.Reg1
import proofs.«101960_j84868553769261_1_alg».proof.Proof.KernelIdeal.Reg2
import proofs.«101960_j84868553769261_1_alg».proof.Proof.Gen.KernelIdeal.Launch
import proofs.«101960_j84868553769261_1_alg».proof.Proof.Gen.KernelIdeal.Skeleton
import proofs.«101960_j84868553769261_1_alg».proof.Proof.Gen.KernelIdeal.Points
import proofs.«101960_j84868553769261_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main

At launch core c's buffers hold the memory m; the six host operations before the first call (four reshapes and the
two halves of the second weight matrix) are folded over it; each call then leaves its arrays at what its write-backs
produce and every other buffer as it found it; the nine host operations after the last call are folded at the end. -/

/-- Entry of the first call: the launch contents after the host prefix, read at a TensorCore reference. -/
abbrev E1 : (c : Dev nD) → (b : Ref sig .tc) → Buf (Elt F) ((c : Thread nD τ).loc b) := fun c b => V1 m c b

/-- After the first call: its arrays at what its pipeline leaves, everything else as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call (no host operation stands between the calls). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the third call. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- At the return: the host tail (the square, its total, the root, the regulariser, the quotient, the leading unit
    axis) folded over what the third call left. -/
abbrev W5 (c : Dev nD) : Valuation τ sig (Elt F) := StableHlo.after hostOps3 (W4 m c)

theorem W5_of (c : Dev nD) (r : Ref sig .tc) (h : r ∉ hostOps3_W) : W5 m c r = W4 m c r :=
  StableHlo.after_of_writes_sub hostOps3 _ hostOps3_writes h

/-! ### No call and no host operation writes an argument

Five arguments bypass every call (the calls read reshaped or sliced copies of them); the first layer's weight
matrix is an input window of the first call, which hands an input array back as it found it. -/

theorem W5_bypass (c : Dev nD) (r : Ref sig .tc) (h3 : r ∉ hostOps3_W) (h2 : ∀ w, Pipeline.arrRef spec2 w ≠ r)
    (h1 : ∀ w, Pipeline.arrRef spec1 w ≠ r) (h0 : ∀ w, Pipeline.arrRef spec0 w ≠ r) (hh : r ∉ hostOps0_W) :
    W5 m c r = m ((c : Thread nD τ).loc r) :=
  (W5_of m c r h3).trans <| (W4_of_ne m c r h2).trans <| (W3_of_ne m c r h1).trans <| (W2_of_ne m c r h0).trans <|
    (V1_of m c r hh).trans rfl

theorem W5_main_arg0 (c : Dev nD) : W5 m c main_arg0 = m ((c : Thread nD τ).loc main_arg0) :=
  W5_bypass m c main_arg0 (by decide) (by decide) (by decide) (by decide) (by decide)
theorem W5_main_arg1 (c : Dev nD) : W5 m c main_arg1 = m ((c : Thread nD τ).loc main_arg1) :=
  W5_bypass m c main_arg1 (by decide) (by decide) (by decide) (by decide) (by decide)
theorem W5_main_arg2 (c : Dev nD) : W5 m c main_arg2 = m ((c : Thread nD τ).loc main_arg2) :=
  (W5_of m c main_arg2 (by decide)).trans <| (W4_of_ne m c main_arg2 (by decide)).trans <|
    (W3_of_ne m c main_arg2 (by decide)).trans <|
    ((W2_arr m c 1).trans (((dat0 (E1 m) c).arrAt_in 1 rfl _).trans (A_eq0 (E1 m) c 1))).trans <|
    (V1_of m c main_arg2 (by decide)).trans rfl
theorem W5_main_arg3 (c : Dev nD) : W5 m c main_arg3 = m ((c : Thread nD τ).loc main_arg3) :=
  W5_bypass m c main_arg3 (by decide) (by decide) (by decide) (by decide) (by decide)
theorem W5_main_arg4 (c : Dev nD) : W5 m c main_arg4 = m ((c : Thread nD τ).loc main_arg4) :=
  W5_bypass m c main_arg4 (by decide) (by decide) (by decide) (by decide) (by decide)
theorem W5_main_arg5 (c : Dev nD) : W5 m c main_arg5 = m ((c : Thread nD τ).loc main_arg5) :=
  W5_bypass m c main_arg5 (by decide) (by decide) (by decide) (by decide) (by decide)

/-! ## The proof data of the three calls, and what rides beside the buffers -/

/-- Each call's proof data at the contents its call is entered from. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers every boundary holds the generator register at some state and the core owing nothing. -/
abbrev Rr (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the owed tallies. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- Call 0 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    have h := hin1 (E2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E2 m) c).Φ (Fin.last cfg1.N) from rfl]
    have h := hout1 (E2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the boundary contents: entered with every unscoped buffer at the contents before it, left with its
    arrays at what its pipeline leaves and every other buffer as entered. Its arrays are split out of the unscoped
    buffers at entry and put back at exit; the generator register goes into the body's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order: the host prefix, the three calls, the host tail. -/
abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m),
    .host (hseg hostOps3 hostOps3_sub hostOps3_fresh (W4 m)) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and in every final state every unscoped buffer of core c holds the last
    fold's contents: the arguments as launched, the result at the host tail of what the third call left. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := ⟨fun _ => .rfl, fun _ => .rfl, fun _ => .rfl, fun _ => .rfl, fun _ => .rfl, fun c =>
      (show (iprop(StableHlo.held (c : Thread nD τ) (Pipeline.ucRefs τ sig) (W5 m c) ∗ Rr c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- THE RUN WITH ITS RESULT: the result buffer ends at the last fold's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v15) = W5 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v15 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.Value.Spec.lean ====
/-
  The mathematics both programs compute, over the extended reals, stated once and index by index.

  Rows r range over the 8192 nodes, columns over the 256 features. With X the node features, A the dense
  adjacency, (W, b) the first affine layer and (W1, W2, b') the second one split at the concatenation point:

    hid  r e = max (sum_q X r q * W q e + b e) 0                       -- the rectified first layer
    pool r d = (sum_k A r k * hid k d) / (sum_k A r k + eps)           -- neighbourhood average, eps-regularised
    pre  r e = max (sum_q X r q * W1 q e + sum_q pool r q * W2 q e + b' e) 0 + eps
    normed r e = pre r e / (sqrt (sum_r' sum_e' pre r' e' * pre r' e') + eps)

  eps is the single-precision word of 1e-8 read as an extended real; it is never evaluated, since both programs
  use the same word. Division and square root are the ideal instance's total functions.
-/
import Idealize.ShloMosaic.PureOps.Ideal

noncomputable section

open scoped BigOperators

namespace Cert.Spec

open Idealize.ShloMosaic

/-- The regulariser: the single-precision word of 1e-8 as an extended real. -/
def eps : EReal := Ideal.ofBits .f32 0x322BCC77#32

/-- The rectified first affine layer at node r, feature e. -/
def hid (X : Fin 8192 → Fin 256 → EReal) (W : Fin 256 → Fin 256 → EReal) (b : Fin 256 → EReal)
    (r : Fin 8192) (e : Fin 256) : EReal :=
  max (∑ q : Fin 256, X r q * W q e + b e) 0

/-- The adjacency-weighted sum of hidden features divided by the regularised row sum of the adjacency. -/
def pool (A : Fin 8192 → Fin 8192 → EReal) (H : Fin 8192 → Fin 256 → EReal) (r : Fin 8192) (d : Fin 256) : EReal :=
  Ideal.div (∑ k : Fin 8192, A r k * H k d) (∑ k : Fin 8192, A r k + eps)

/-- The second affine layer on the concatenation [X, P], written as the sum of its two halves, rectified, plus eps. -/
def pre (X P : Fin 8192 → Fin 256 → EReal) (W1 W2 : Fin 256 → Fin 256 → EReal) (b : Fin 256 → EReal)
    (r : Fin 8192) (e : Fin 256) : EReal :=
  max (∑ q : Fin 256, X r q * W1 q e + ∑ q : Fin 256, P r q * W2 q e + b e) 0 + eps

/-- Division by the regularised Euclidean norm of the whole array. -/
def normed (P : Fin 8192 → Fin 256 → EReal) (r : Fin 8192) (e : Fin 256) : EReal :=
  Ideal.div (P r e) (Ideal.sqrt (∑ r' : Fin 8192, ∑ e' : Fin 256, P r' e' * P r' e') + eps)

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Value.Pay02.lean ====
/-
  The first and the third kernel's stored blocks read at one entry.

  Both kernels store, for a block of 2048 rows and 256 columns, an affine layer followed by a rectification. Over the
  extended reals every operation in the two terms is exact, so at entry (r, e) of the block:

    first kernel:  max (∑_q x0 (r, q) · x1 (q, e) + x2 (0, e)) 0
    third kernel:  max (∑_q x0 (r, q) · x2 (q, e) + ∑_q x1 (r, q) · x3 (q, e) + x4 (0, e)) 0 + eps

  where x0, x1 are the 2048×256 row blocks, the 256×256 arrays are the weights, the 1×256 array is the bias row and
  eps is the regulariser's single-precision word read as an extended real. Four facts are used and no law of the
  extended reals beyond 0 + a = a inside the product lemma: narrowing to a shorter format is the identity on extended
  reals; a cast of an array to its own shape is the identity; a 1×256 row repeated down 2048 rows is, at (r, e), the row
  at (0, e); and a product accumulated into the all-zero array is, at (r, e), the sum over the contracted coordinate of
  the factors' products. The zero word is the extended real 0; the regulariser's word is never evaluated.
-/
import proofs.«101960_j84868553769261_1_alg».proof.Proof.Gen.KernelIdeal.Skeleton
import proofs.«101960_j84868553769261_1_alg».proof.Proof.Value.Spec
import proofs.«101960_j84868553769261_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pay02

open Cert.KernelIdeal Cert.KernelIdeal.Gen Idealize.ShloMosaic Idealize.ShloMosaic.ValueIdx

/-- The generated dimension record of the 2048×256 by 256×256 product is the plain one: left axis 1 contracted with
    right axis 0, no batch axis. -/
theorem dot_plain : dot_S2048x256_S256x256_S2048x256_1_0_0_1_n_n = DotDims.plain 2048 256 256 := rfl

/-- The product of a 2048×256 array and a 256×256 array accumulated into the all-zero array, at entry (r, e): the sum
    over q of A (r, q) · B (q, e). -/
theorem mm (A : FVec Ideal S2048x256 .bf16) (B : FVec Ideal S256x256 .bf16) (r : Fin 2048) (e : Fin 256) :
    matmul dot_S2048x256_S256x256_S2048x256_1_0_0_1_n_n none A B (constant (F := Ideal) S2048x256 .f32 0x00000000#32) (ix2 r e)
      = ∑ q : Fin 256, A (ix2 r q) * B (ix2 q e) :=
  Cert.LibDotPlain.matmul_zero_plain 2048 256 256 none A B r e

/-- The first kernel's stored block at entry (r, e): the row of x0 times the column of x1, plus the bias row x2 at
    column e, rectified. Narrowing to the shorter format is the identity on extended reals, a cast to the same shape
    is the identity, the 1×256 bias row is repeated down the 2048 rows, and the zero word is the extended real 0. -/
theorem pay0 (x0 : Vec Ideal S2048x256 .f32) (x1 : Vec Ideal S256x256 .f32) (x2 : Vec Ideal S1x256 .f32)
    (r : Fin 2048) (e : Fin 256) :
    k0_pay1 (F := Ideal) x0 x1 x2 (ix2 r e)
      = max (∑ q : Fin 256, x0 (ix2 r q) * x1 (ix2 q e) + x2 (ix2 (0 : Fin 1) e)) 0 := by
  unfold k0_pay1
  have hs0 : shapeCast S2048x256 x0 shapeCasts_S2048x256_S2048x256 = x0 := shapeCast_self x0 _
  have hs2 : shapeCast S1x256 x2 shapeCasts_S1x256_S1x256 = x2 := shapeCast_self x2 _
  rw [hs0, hs2]
  show max (matmul dot_S2048x256_S256x256_S2048x256_1_0_0_1_n_n none
        (truncf (F := Ideal) .bf16 x0 bitsLt_bf16_f32) (truncf (F := Ideal) .bf16 x1 bitsLt_bf16_f32)
        (constant (F := Ideal) S2048x256 .f32 0x00000000#32) (ix2 r e)
      + broadcastTo S2048x256 x2 broadcasts_S1x256_S2048x256 (ix2 r e)) (Ideal.ofBits .f32 0x00000000#32) = _
  rw [mm, broadcastTo_1b_ab_apply, Ideal.ofBits_zero_f32]
  rfl

/-- The third kernel's stored block at entry (r, e): the row of x0 times the column of x2, plus the row of x1 times the
    column of x3, plus the bias row x4 at column e, rectified, plus the regulariser. The same identities as above; the
    regulariser's word is left as it is. -/
theorem pay2 (x0 x1 : Vec Ideal S2048x256 .f32) (x2 x3 : Vec Ideal S256x256 .f32) (x4 : Vec Ideal S1x256 .f32)
    (r : Fin 2048) (e : Fin 256) :
    k2_pay1 (F := Ideal) x0 x1 x2 x3 x4 (ix2 r e)
      = max (∑ q : Fin 256, x0 (ix2 r q) * x2 (ix2 q e) + ∑ q : Fin 256, x1 (ix2 r q) * x3 (ix2 q e)
          + x4 (ix2 (0 : Fin 1) e)) 0 + Cert.Spec.eps := by
  unfold k2_pay1
  have hs0 : shapeCast S2048x256 x0 shapeCasts_S2048x256_S2048x256 = x0 := shapeCast_self x0 _
  have hs1 : shapeCast S2048x256 x1 shapeCasts_S2048x256_S2048x256 = x1 := shapeCast_self x1 _
  have hs2 : shapeCast S256x256 x2 shapeCasts_S256x256_S256x256 = x2 := shapeCast_self x2 _
  have hs3 : shapeCast S256x256 x3 shapeCasts_S256x256_S256x256 = x3 := shapeCast_self x3 _
  have hs4 : shapeCast S1x256 x4 shapeCasts_S1x256_S1x256 = x4 := shapeCast_self x4 _
  rw [hs0, hs1, hs2, hs3, hs4]
  show max (matmul dot_S2048x256_S256x256_S2048x256_1_0_0_1_n_n none
        (truncf (F := Ideal) .bf16 x0 bitsLt_bf16_f32) (truncf (F := Ideal) .bf16 x2 bitsLt_bf16_f32)
        (constant (F := Ideal) S2048x256 .f32 0x00000000#32) (ix2 r e)
      + matmul dot_S2048x256_S256x256_S2048x256_1_0_0_1_n_n none
        (truncf (F := Ideal) .bf16 x1 bitsLt_bf16_f32) (truncf (F := Ideal) .bf16 x3 bitsLt_bf16_f32)
        (constant (F := Ideal) S2048x256 .f32 0x00000000#32) (ix2 r e)
      + broadcastTo S2048x256 x4 broadcasts_S1x256_S2048x256 (ix2 r e)) (Ideal.ofBits .f32 0x00000000#32)
      + Ideal.ofBits .f32 0x322BCC77#32 = _
  rw [mm, mm, broadcastTo_1b_ab_apply, Ideal.ofBits_zero_f32]
  rfl

end Cert.Pay02

end
-- ==== Proof.Value.Arr0.lean ====
/- REGION 0's output array after the region, over the extended reals, as one function of the arrays the region
   finds: entry (R, e) is max (∑ q, X R q · W q e + b e) 0. The grid has 4 points; point t's output block is rows
   2048·t … 2048·t + 2047, computed from the same rows of X and from the whole of W and b; the four blocks tile
   the array. -/
import proofs.«101960_j84868553769261_1_alg».proof.Proof.KernelIdeal.Reg0
import proofs.«101960_j84868553769261_1_alg».proof.Proof.Value.Pay02
import proofs.«101960_j84868553769261_1_alg».proof.Proof.Value.Spec
import Idealize.ShloMosaic.Lib.Pipeline.Value
import Idealize.ShloMosaic.Lib.ValueIdx

noncomputable section

open scoped BigOperators

namespace Cert.Arr0

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The rectified affine layer of the arrays X (8192×256), W (256×256), b (1×256), index by index. -/
def G (a0 : S8192x256.Idx → EReal) (a1 : S256x256.Idx → EReal) (a2 : S1x256.Idx → EReal) : S8192x256.Idx → EReal :=
  fun i => max (∑ q : Fin 256, a0 (ix2 (i 0) q) * a1 (ix2 q (i 1)) + a2 (ix2 (0 : Fin 1) (i 1))) 0

/-- The body's payload at entry (r, e) of a block, when the block of X holds rows of a0 at row offset R - r and the
    other two blocks are a1 and a2 whole. -/
theorem point_eq (x0 : Vec Ideal S2048x256 .f32) (x1 : Vec Ideal S256x256 .f32) (x2 : Vec Ideal S1x256 .f32)
    (a0 : S8192x256.Idx → EReal) (a1 : S256x256.Idx → EReal) (a2 : S1x256.Idx → EReal)
    (r : Fin 2048) (e : Fin 256) (R : Fin 8192) (e' : Fin 256)
    (h0 : ∀ q : Fin 256, x0 (ix2 r q) = a0 (ix2 R q))
    (h1 : ∀ q : Fin 256, x1 (ix2 q e) = a1 (ix2 q e'))
    (h2 : x2 (ix2 (0 : Fin 1) e) = a2 (ix2 (0 : Fin 1) e')) :
    k0_pay1 (F := Ideal) x0 x1 x2 (ix2 r e)
      = max (∑ q : Fin 256, a0 (ix2 R q) * a1 (ix2 q e') + a2 (ix2 (0 : Fin 1) e')) 0 := by
  rw [Cert.Pay02.pay0]
  simp only [h0, h1, h2]

/-- The printed index maps, decided over the grid: windows 0 and 3 are at block row t, windows 1 and 2 at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- Window 0's block at point t is rows 2048·t … of X. -/
theorem iblk_0 (c : Dev nD) (t : Fin cfg0.N) (x : S2048x256.Idx) (k : S8192x256.Idx)
    (hk0 : (k 0).val = t.val * 2048 + (x 0).val) (hk1 : (k 1).val = (x 1).val) :
    (iblk0 V c 0 t : Vec Ideal S2048x256 .f32) x = (V c main_v1 : S8192x256.Idx → EReal) k := by
  obtain ⟨e0, e1, -⟩ := block_index t
  unfold iblk0
  rw [View.read_apply]
  show V c main_v1 _ = V c main_v1 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 256 + 1 * (x 1).val = (k 1).val; rw [e1, hk1]; omega

/-- Window 1's block at every point is W whole. -/
theorem iblk_1 (c : Dev nD) (t : Fin cfg0.N) (x : S256x256.Idx) (k : S256x256.Idx)
    (hk0 : (k 0).val = (x 0).val) (hk1 : (k 1).val = (x 1).val) :
    (iblk0 V c 1 t : Vec Ideal S256x256 .f32) x = (V c main_arg2 : S256x256.Idx → EReal) k := by
  obtain ⟨-, -, e2, e3, -⟩ := block_index t
  unfold iblk0
  rw [View.read_apply]
  show V c main_arg2 _ = V c main_arg2 _
  congr 1
  funext a
  apply Fin.ext
  match a with
  | ⟨0, _⟩ => show win0_1.index t (0 : Fin 2) * 256 + 1 * (x 0).val = (k 0).val; rw [e2, hk0]; omega
  | ⟨1, _⟩ => show win0_1.index t (1 : Fin 2) * 256 + 1 * (x 1).val = (k 1).val; rw [e3, hk1]; omega

/-- Window 2's block at every point is b whole. -/
theorem iblk_2 (c : Dev nD) (t : Fin cfg0.N) (x : S1x256.Idx) (k : S1x256.Idx)
    (hk0 : (k 0).val = (x 0).val) (hk1 : (k 1).val = (x 1).val) :
    (iblk0 V c 2 t : Vec Ideal S1x256 .f32) x = (V c main_v2 : S1x256.Idx → EReal) k := by
  obtain ⟨-, -, -, -, e4, e5, -⟩ := block_index t
  unfold iblk0
  rw [View.read_apply]
  show V c main_v2 _ = V c main_v2 _
  congr 1
  funext a
  apply Fin.ext
  match a with
  | ⟨0, _⟩ => show win0_2.index t (0 : Fin 2) * 1 + 1 * (x 0).val = (k 0).val; rw [e4, hk0]; omega
  | ⟨1, _⟩ => show win0_2.index t (1 : Fin 2) * 256 + 1 * (x 1).val = (k 1).val; rw [e5, hk1]; omega

/-- What point t writes back is block t of G of the arrays as the region finds them. -/
theorem written_block (c : Dev nD) (t : Fin cfg0.N) :
    (dat0 V c).flushed 3 t
      = ((cfg0.win 3).blk t).view.read (Elt Ideal) (G (V c main_v1) (V c main_arg2) (V c main_v2)) := by
  show (cfg0.win 3).cut (grid0.coords t) ((dat0 V c).after 3 t) = _
  rw [after0_3]
  unfold out0_3
  rw [View.canon_unit_zero zero_offsets]
  simp only [View.ld_unit_zero (S := S2048x256) zero_offsets, View.ld_unit_zero (S := S256x256) zero_offsets, View.ld_unit_zero (S := S1x256) zero_offsets]
  obtain ⟨-, -, -, -, -, -, e6, e7, -⟩ := block_index t
  funext j
  obtain ⟨r, e, rfl⟩ : ∃ (r : Fin 2048) (e : Fin 256), j = ix2 r e := ⟨j 0, j 1, eq_ix2 j⟩
  show k0_pay1 (F := Ideal) (iblk0 V c 0 t) (iblk0 V c 1 t) (iblk0 V c 2 t) (ix2 r e)
    = G (V c main_v1) (V c main_arg2) (V c main_v2) (((cfg0.win 3).blk t).view.emb (ix2 r e))
  unfold G
  refine point_eq (iblk0 V c 0 t) (iblk0 V c 1 t) (iblk0 V c 2 t) (V c main_v1) (V c main_arg2) (V c main_v2)
    r e _ _ (fun q => ?_) (fun q => ?_) ?_
  · refine iblk_0 V c t _ _ ?_ rfl
    show win0_3.index t (0 : Fin 2) * 2048 + 1 * r.val = t.val * 2048 + r.val
    rw [e6]; omega
  · refine iblk_1 V c t _ _ rfl ?_
    show win0_3.index t (1 : Fin 2) * 256 + 1 * e.val = e.val
    rw [e7]; omega
  · refine iblk_2 V c t _ _ rfl ?_
    show win0_3.index t (1 : Fin 2) * 256 + 1 * e.val = e.val
    rw [e7]; omega

/-- An index of the array is in point t's block iff each coordinate is in the block's range on its axis. -/
theorem mem_block (t : Fin cfg0.N) (i : S8192x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v6).slice (win0_3.rect t)).set ↔ _
  rw [View.set_slice_whole, Rect.mem_set_unit]
  exact Iff.rfl

/-- Row R of the array is in the block of point R / 2048. -/
theorem row_covered (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 4 := N_0
  have ht : (i 0).val / 2048 < cfg0.N := by rw [hN]; omega
  obtain ⟨-, -, -, -, -, -, e6, e7, -⟩ := block_index ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 256 ≤ (i 1).val
      ∧ (i 1).val < win0_3.index ⟨(i 0).val / 2048, ht⟩ (1 : Fin 2) * 256 + 256
    rw [e7]; omega

/-- The array after the region is G of the arrays as the region finds them. -/
theorem array_eq (c : Dev nD) :
    (dat0 V c).arrAt 3 cfg0.N = G (V c main_v1) (V c main_arg2) (V c main_v2) :=
  (dat0 V c).arrAt_eq_of_cover 3 (G (V c main_v1) (V c main_arg2) (V c main_v2)) (fun t _ => written_block V c t) row_covered

-- sum and product of two extended reals, with the type written out: the arrays' entries have types that only
-- unfold to the extended reals
local infixl:70 " ⊛ " => @HMul.hMul EReal EReal EReal instHMul
local infixl:65 " ⊞ " => @HAdd.hAdd EReal EReal EReal instHAdd

/-- The output array of region 0, entry by entry. -/
theorem arr0 (c : Dev nD) (R : Fin 8192) (e : Fin 256) :
    @Eq EReal ((dat0 V c).arrAt 3 cfg0.N (ix2 R e))
      (max ((∑ q : Fin 256, V c main_v1 (ix2 R q) ⊛ V c main_arg2 (ix2 q e)) ⊞ V c main_v2 (ix2 (0 : Fin 1) e)) 0) :=
  congrFun (array_eq V c) (ix2 R e)

/-- The arrays region 0 reads, as curried functions of literal coordinates: the node features, the first layer's
    weights, its bias. -/
abbrev X (c : Dev nD) (r : Fin 8192) (q : Fin 256) : EReal := V c main_v1 (ix2 r q)
abbrev W (c : Dev nD) (q : Fin 256) (e : Fin 256) : EReal := V c main_arg2 (ix2 q e)
abbrev B (c : Dev nD) (e : Fin 256) : EReal := V c main_v2 (ix2 (0 : Fin 1) e)

/-- The same against the specification: the output array of region 0 is the rectified first layer. -/
theorem arr0_hid (c : Dev nD) (R : Fin 8192) (e : Fin 256) :
    @Eq EReal ((dat0 V c).arrAt 3 cfg0.N (ix2 R e)) (Cert.Spec.hid (X V c) (W V c) (B V c) R e) :=
  arr0 V c R e

end Cert.Arr0

end
-- ==== Proof.Value.Pay1.lean ====
/-
  The pooling kernel's stored values, read at one entry.

  The kernel keeps two running buffers for a block of 2048 rows: a 2048 × 256 buffer of partial products and a
  2048 × 128 buffer whose every lane of row r holds the partial row sum of the adjacency. Five values are stored:

    * the two resets, all-zero arrays (the zero word is the extended real 0);
    * the product step: the old partial product plus the 2048 × 1024 adjacency tile times the 1024 × 256 tile of
      hidden features, at (r, d): p0 (r, d) + ∑ q, a (r, q) · hb (q, d). The narrowing of the adjacency tile to the
      16-bit format is the identity on extended reals, and the product is accumulated into an all-zero array;
    * the row-sum step: the old partial row sum plus the sum of the tile's row r, the same in every lane l:
      p1 (r, l) + ∑ q, a (r, q). The row sum is a lane reduction to a vector of 2048 entries, recast as a
      2048 × 1 column and broadcast along the 128 lanes;
    * the final quotient: the partial product divided by (lane 0 of the row sum plus eps), the divisor being a
      2048 × 1 column broadcast along the 256 features.

  Every pointwise operation is definitional at an index; the layout operations (recast to a column, broadcast of a
  column) are read through their row-major position and their per-axis coordinate rule.
-/
import proofs.«101960_j84868553769261_1_alg».proof.Proof.Gen.KernelIdeal.Skeleton
import proofs.«101960_j84868553769261_1_alg».proof.Proof.Value.Spec
import proofs.«101960_j84868553769261_1_alg».proof.Proof.LibDotPlain
import Idealize.ShloMosaic.PureOps.Ideal.Laws
import Idealize.ShloMosaic.Lib.ValueIdx
import Idealize.ShloMosaic.Lib.Pipeline.Value

noncomputable section

open scoped BigOperators

namespace Cert.Pay1

open Cert.KernelIdeal Cert.KernelIdeal.Gen Idealize.ShloMosaic Idealize.ShloMosaic.ValueIdx

/-! ## Two layout operations on a column, read at an index -/

section Layout
variable {α : Type}

/-- A vector of a entries recast as an a × 1 column reads, at (i, u), the vector at i: both have row-major
    position i, since the unit coordinate u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two resets -/

/-- The reset of the partial-product buffer is 0 at every entry: a splat of the zero word, recast to its own shape. -/
theorem reset0 (r : Fin 2048) (d : Fin 256) : k1_pay1 (F := Ideal) (ix2 r d) = 0 := by
  unfold k1_pay1
  show shapeCast S2048x256 (broadcast S2048x256 (Scalar.ofBits (F := Ideal) .f32 0x00000000#32)) shapeCasts_S2048x256_S2048x256 (ix2 r d) = 0
  rw [shapeCast_self]
  exact Ideal.ofBits_zero_f32

/-- The reset of the row-sum buffer is 0 at every entry. -/
theorem reset1 (r : Fin 2048) (l : Fin 128) : k1_pay2 (F := Ideal) (ix2 r l) = 0 := by
  unfold k1_pay2
  show shapeCast S2048x128 (broadcast S2048x128 (Scalar.ofBits (F := Ideal) .f32 0x00000000#32)) shapeCasts_S2048x128_S2048x128 (ix2 r l) = 0
  rw [shapeCast_self]
  exact Ideal.ofBits_zero_f32

/-! ## The product step -/

/-- The dimension numbers of the 2048 × 1024 by 1024 × 256 product are the plain ones: axis 1 of the left
    factor contracted with axis 0 of the right factor, no batch axis. -/
theorem dot_eq_plain : dot_S2048x1024_S1024x256_S2048x256_1_0_0_1_n_n = DotDims.plain 2048 1024 256 := rfl

/-- The product step at (r, d): the old partial product plus ∑ q, a (r, q) · hb (q, d). The recasts to the same
    shape are identities, the narrowing of the adjacency tile is the identity on extended reals, and the product is
    accumulated into the all-zero array. -/
theorem acc0 (a : Vec Ideal S2048x1024 .f32) (hb : Vec Ideal S1024x256 .bf16) (p0 : Vec Ideal S2048x256 .f32)
    (r : Fin 2048) (d : Fin 256) :
    k1_pay4 (F := Ideal) a hb p0 (ix2 r d) = p0 (ix2 r d) + ∑ q : Fin 1024, a (ix2 r q) * hb (ix2 q d) := by
  unfold k1_pay4 k1_pay3
  simp only [shapeCast_self]
  refine (addf_apply _ _ _).trans ?_
  refine congrArg (fun z => p0 (ix2 r d) + z) ?_
  exact Cert.LibDotPlain.matmul_zero_plain 2048 1024 256 (φ₁ := .bf16) (φ₂ := .bf16) none
    (truncf .bf16 a bitsLt_bf16_f32) hb r d

/-! ## The row-sum step -/

/-- The lane reduction of the adjacency tile at row r, started from the zero word, is ∑ q, a (r, q): the reduced
    index r with the coordinate q put back on axis 1 is (r, q). -/
theorem rowsum (a : Vec Ideal S2048x1024 .f32) (r : Fin 2048) :
    multiReduction (F := Ideal) .add [1] S2048 a 0x00000000#32 reduces_S2048x1024_S2048 (.inl rfl) rfl (ix1 r)
      = ∑ q : Fin 1024, a (ix2 r q) := by
  refine (Ideal.multiReduction_add_single (φ := .f32) a 0x00000000#32 reduces_S2048x1024_S2048 (.inl rfl) rfl (ix1 r)).trans ?_
  refine Finset.sum_congr rfl fun q _ => congrArg a ?_
  funext ax
  match ax with
  | ⟨0, _⟩ => rfl
  | ⟨1, _⟩ => rfl

/-- The row-sum step at (r, l): the old partial row sum plus ∑ q, a (r, q), whatever the lane l. The row sum is a
    vector of 2048 entries recast as a 2048 × 1 column, then broadcast along the 128 lanes. -/
theorem acc1 (a : Vec Ideal S2048x1024 .f32) (p1 : Vec Ideal S2048x128 .f32) (r : Fin 2048) (l : Fin 128) :
    k1_pay5 (F := Ideal) a p1 (ix2 r l) = p1 (ix2 r l) + ∑ q : Fin 1024, a (ix2 r q) := by
  unfold k1_pay5 k1_pay3
  simp only [shapeCast_self]
  refine (addf_apply _ _ _).trans ?_
  refine congrArg (fun z => p1 (ix2 r l) + z) ?_
  refine (broadcastTo_a1_ab_apply _ broadcasts_S2048x1_S2048x128 r l).trans ?_
  refine (shapeCast_a_a1_apply _ shapeCasts_S2048_S2048x1 r (0 : Fin 1)).trans ?_
  exact rowsum a r

/-! ## The final quotient -/

/-- The final quotient at (r, d): the partial product divided by lane 0 of the row sum plus eps; the divisor is a
    2048 × 1 column broadcast along the 256 features. -/
theorem fin (v26 : Vec Ideal S2048x1 .f32) (v29 : Vec Ideal S2048x256 .f32) (r : Fin 2048) (d : Fin 256) :
    k1_pay6 (F := Ideal) v26 v29 (ix2 r d)
      = Ideal.div (v29 (ix2 r d)) (v26 (ix2 r (0 : Fin 1)) + Cert.Spec.eps) := by
  unfold k1_pay6
  refine (divf_apply _ _ _).trans ?_
  refine congrArg (Ideal.div (v29 (ix2 r d))) ?_
  refine (broadcastTo_a1_ab_apply _ broadcasts_S2048x1_S2048x256 r d).trans ?_
  rfl

end Cert.Pay1
-- ==== Proof.Value.Pieces1.lean ====
/-
  The pooling call's per-point stores, read as values.

  At each grid point the body keeps two running arrays for a block of 2048 rows: a 2048 × 256 array of partial
  products and a 2048 × 128 array of partial row sums. The frame names what each of the three control cases leaves
  in them, and in the output block, as lists of written pieces read back. Here each such read-back is identified with
  the arithmetic that was stored, as a function of what the point read (the two input blocks and, except where the
  arrays were just zeroed, the arrays' contents before the point):

    * inner coordinate 0: both arrays are first overwritten with zeros, read back, and then updated, so they end at
      (zeros + this block's partial product) and (zeros + this block's row sums);
    * inner coordinate 1..6: (old product + partial product), (old row sums + row sums);
    * inner coordinate 7: the same two updates, and the output block is the NEW product array divided by
      (first column of the NEW row-sum array + ε), the column read through the 2048 × 1 rectangle at the origin.

  Every load and store but that column goes through the whole array, so a load reads the contents and the last
  store leaves its payload; the column load of a freshly stored whole array reads that payload's first column.
  All statements are generic in the float instance.
-/
import proofs.«101960_j84868553769261_1_alg».proof.Proof.KernelIdeal.Reg1
import Idealize.ShloMosaic.Lib.Pipeline.Value
import Idealize.ShloMosaic.Lib.ValueIdx
import Idealize.ShloMosaic.PureOps.Ideal
import Idealize.ShloMosaic.Lib.Tactic

set_option maxRecDepth 16384

noncomputable section

open Idealize.ShloMosaic Idealize.ShloMosaic.TcCoe Idealize.SL.Sem
open Idealize.ShloMosaic.Pipeline (Dat)

namespace Cert.Pieces1

open Cert.KernelIdeal Cert.KernelIdeal.Gen Cert.KernelIdeal.Hand
open Idealize.ShloMosaic.ValueIdx

variable {F : FTy → Type} [FloatOps F]

/-- The origin of a rank-two array, spelt as the constant-zero function. -/
theorem hz : (![0, 0] : Fin 2 → Nat) = fun _ => 0 := funext fun a => by fin_cases a <;> rfl

/-- The first column of the 2048 × 128 row-sum array: the 2048 × 1 rectangle at the origin. -/
abbrev colRect : Rect S2048x128 := Rect.unit (s := S2048x128) ![0, 0] S2048x1.size inb_S2048x128_S2048x1_0_0

/-- The first column loaded back after ONE whole store into the row-sum array is the first column of what was stored. -/
theorem readCov_col (v : View sig .tc .vmem S2048x128 .f32) (w : Vec F S2048x128 .f32) :
    v.readCov [(⟨Rect.unit (s := S2048x128) ![0, 0] S2048x128.size inb_S2048x128_S2048x128_0_0, w⟩ : View.Piece (Elt F) S2048x128 .f32)] colRect.toLoadRect
      = View.ld w colRect := by
  have hcov : ∀ y : S2048x128.Idx, ∃ p ∈ [(⟨Rect.unit (s := S2048x128) ![0, 0] S2048x128.size inb_S2048x128_S2048x128_0_0, w⟩ : View.Piece (Elt F) S2048x128 .f32)], y ∈ p.1.set :=
    fun y => ⟨_, List.mem_singleton_self _, View.mem_set_unit_zero (S := S2048x128) hz inb_S2048x128_S2048x128_0_0 y⟩
  rw [View.readCov_eq_canon_ld v _ colRect hcov, View.canon_unit_zero hz]

/-! ## Inner coordinate 0: zeroed, then updated -/

/-- The product array ends at the update of the zero array by this block's partial product. -/
theorem piece_A_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) :
    sout1_A_0 c i arg2 harg2 arg3 harg3 arg4 harg4 arg5 harg5 arg6 harg6 hc0 hc1 x0 x1 = k1_pay4 x0 x1 (k1_pay1 (F := F)) := by
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero (S := S2048x256) hz, View.readCov_unit_zero (S := S2048x256) _ hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-- The row-sum array ends at the update of the zero array by this block's row sums. -/
theorem piece_A_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S1024x256 .bf16) :
    sout1_A_1 c i arg2 harg2 arg3 harg3 arg4 harg4 arg5 harg5 arg6 harg6 hc0 hc1 x0 x1 = k1_pay5 x0 (k1_pay2 (F := F)) := by
  unfold sout1_A_1
  rw [View.read_writes_eq_canon _ _ _ (scover1_A_1 c i arg2 harg2 arg3 harg3 arg4 harg4 arg5 harg5 arg6 harg6 hc0 hc1 x0 x1)]
  unfold kernelRun1_A
  dsimp only
  sl_unfold_words
  rw [View.canon_cons_unit_zero (S := S2048x128) hz, View.readCov_unit_zero (S := S2048x128) _ hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-! ## Inner coordinate 1..6: updated -/

/-- The product array: what the point before left, updated by this block's partial product. -/
theorem piece_B_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) :
    sout1_B_0 c i arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg2 harg2 arg3 harg3 arg4 harg4 arg5 harg5 arg6 harg6 hc0 hc1 x0 x1 xs0 xs1)]
  unfold kernelRun1_B
  dsimp only
  sl_unfold_words
  rw [View.canon_unit_zero hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-- The row-sum array: what the point before left, updated by this block's row sums. -/
theorem piece_B_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S1024x256 .bf16) (xs0 : Vec F S2048x256 .f32) (xs1 : Vec F S2048x128 .f32) :
    sout1_B_1 c i arg2 harg2 arg3 harg3 arg4 harg4 arg5 harg5 arg6 harg6 hc0 hc1 x0 x1 xs0 xs1 = k1_pay5 x0 xs1 := by
  unfold sout1_B_1
  rw [View.read_writes_eq_canon _ _ _ (scover1_B_1 c i arg2 harg2 arg3 harg3 arg4 harg4 arg5 harg5 arg6 harg6 hc0 hc1 x0 x1 xs0 xs1)]
  unfold kernelRun1_B
  dsimp only
  sl_unfold_words
  rw [View.canon_unit_zero hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-! ## Inner coordinate 7: updated, then the quotient stored -/

/-- The product array, as at the points before. -/
theorem piece_C_0 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) :
    sout1_C_0 c i arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg2 harg2 arg3 harg3 arg4 harg4 arg5 harg5 arg6 harg6 hc0 hc1 x0 x1 xs0 xs1)]
  unfold kernelRun1_C
  dsimp only
  sl_unfold_words
  rw [View.canon_unit_zero hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-- The row-sum array, as at the points before. -/
theorem piece_C_1 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) :
    sout1_C_1 c i arg2 harg2 arg3 harg3 arg4 harg4 arg5 harg5 arg6 harg6 hc0 hc1 x0 x1 xs0 xs1 = k1_pay5 x0 xs1 := by
  unfold sout1_C_1
  rw [View.read_writes_eq_canon _ _ _ (scover1_C_1 c i arg2 harg2 arg3 harg3 arg4 harg4 arg5 harg5 arg6 harg6 hc0 hc1 x0 x1 xs0 xs1)]
  unfold kernelRun1_C
  dsimp only
  sl_unfold_words
  rw [View.canon_unit_zero hz]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-- The output block: the NEW product array divided by (the first column of the NEW row-sum array + ε). Both are
    loaded back after this point's own whole stores, so they read those stores' payloads. -/
theorem piece_C_2 (c : Dev nD) (i : grid1.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S1024x256 .bf16) (xs0 : Vec F S2048x256 .f32) (xs1 : Vec F S2048x128 .f32) :
    out1_C_2 c i arg2 harg2 arg3 harg3 arg4 harg4 arg5 harg5 arg6 harg6 hc0 hc1 x0 x1 xs0 xs1 = k1_pay6 (View.ld (k1_pay5 x0 xs1) colRect) (k1_pay4 x0 x1 xs0) := by
  unfold out1_C_2
  rw [View.read_writes_eq_canon _ _ _ (cover1_C_2 c i arg2 harg2 arg3 harg3 arg4 harg4 arg5 harg5 arg6 harg6 hc0 hc1 x0 x1 xs0 xs1)]
  unfold kernelRun1_C
  dsimp only
  sl_unfold_words
  rw [View.canon_unit_zero hz, View.readCov_unit_zero (S := S2048x256) _ hz, readCov_col]
  simp only [View.readAt_eq_ld, harg2.read_unread, harg3.read_unread, harg5.read_unread, harg6.read_unread,
    View.ld_unit_zero (S := S2048x1024) hz, View.ld_unit_zero (S := S1024x256) hz, View.ld_unit_zero (S := S2048x256) hz,
    View.ld_unit_zero (S := S2048x128) hz]

/-! ## The column, at an index -/

/-- The first column read at row `r` is lane 0 of row `r`: the rectangle starts at the origin with unit stride. -/
theorem col_apply (v : Vec Ideal S2048x128 .f32) (r : Fin 2048) :
    (View.ld v colRect) (ix2 r (0 : Fin 1)) = v (ix2 r (0 : Fin 128)) := by
  show v (colRect.idx (ix2 r (0 : Fin 1))) = v (ix2 r (0 : Fin 128))
  refine congrArg v (funext fun a => Fin.ext ?_)
  fin_cases a
  · show 0 + 1 * r.val = r.val; omega
  · show 0 + 1 * 0 = 0; rfl

end Cert.Pieces1

end
-- ==== Proof.Value.Arr1.lean ====
/-
  The pooled array after the pooling call, at the extended reals.

  The call runs over a grid of 4 row blocks by 8 column blocks, the column axis innermost: point t = 8 i + j reads the
  2048 × 1024 block (i, j) of the adjacency A and the 1024 × 256 row block j of the hidden features H. Two running
  buffers carry, across the eight points of a row block,

      P (r, d) = ∑ over column blocks jb ≤ j of ∑ q < 1024, A (2048 i + r, 1024 jb + q) · H (1024 jb + q, d)
      S (r, l) = ∑ over column blocks jb ≤ j of ∑ q < 1024, A (2048 i + r, 1024 jb + q)       (the same in every lane l)

  both reset to 0 at j = 0. This is proved by induction on the point: the first point of a row block stores 0 + its own
  share, every other point stores what the point before left plus its own share, and a block's entry (r, q) is the
  array's entry at block index × block size + (r, q). At j = 7 the quotient P / (S(·, 0) + eps) is stored into the
  output block, the only points that write back, and row R of the array is written by the last point of row block
  R / 2048; so the array ends holding, at (R, d),

      (∑ k < 8192, A (R, k) · H (k, d)) / (∑ k < 8192, A (R, k) + eps),

  the eight blocks of 1024 columns being the 8192 columns in order (a sum over a range split at multiples of 1024:
  only associativity of + on extended reals is used). To sum over blocks of columns without carrying bounds, the two
  arrays are extended by 0 to all natural coordinates.
-/
import proofs.«101960_j84868553769261_1_alg».proof.Proof.KernelIdeal.Reg1
import proofs.«101960_j84868553769261_1_alg».proof.Proof.Value.Pay1
import proofs.«101960_j84868553769261_1_alg».proof.Proof.Value.Pieces1
import proofs.«101960_j84868553769261_1_alg».proof.Proof.Value.Spec
import Idealize.ShloMosaic.Lib.Pipeline.Value
import Idealize.ShloMosaic.Lib.ValueIdx
import Mathlib.Algebra.BigOperators.Intervals

noncomputable section

open scoped BigOperators

namespace Cert.Arr1

open Cert.KernelIdeal Cert.KernelIdeal.Gen Cert.KernelIdeal.Hand Cert.Pieces1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays and the blocks, by their literal types -/

/-- The adjacency as the region finds it: an 8192 × 8192 array of extended reals. -/
abbrev Aarr (c : Dev nD) : S8192x8192.Idx → EReal := V c main_v0
/-- The hidden features as the region finds them: an 8192 × 256 array of extended reals. -/
abbrev Harr (c : Dev nD) : S8192x256.Idx → EReal := V c main_v6
/-- The adjacency's 2048 × 1024 block at point t. -/
abbrev ablk (c : Dev nD) (t : Fin cfg1.N) : Vec Ideal S2048x1024 .f32 := iblk1 V c 0 t
/-- The hidden features' 1024 × 256 block at point t. -/
abbrev hblk (c : Dev nD) (t : Fin cfg1.N) : Vec Ideal S1024x256 .bf16 := iblk1 V c 1 t

/-- The two arrays as total functions of natural coordinates (0 outside the array), so that sums over blocks of
    columns are sums over ranges of naturals. -/
def Af (c : Dev nD) (R k : ℕ) : EReal :=
  if h : R < 8192 ∧ k < 8192 then Aarr V c (ix2 ⟨R, h.1⟩ ⟨k, h.2⟩) else 0
def Hf (c : Dev nD) (k d : ℕ) : EReal :=
  if h : k < 8192 ∧ d < 256 then Harr V c (ix2 ⟨k, h.1⟩ ⟨d, h.2⟩) else 0

/-! ## Where each window's block sits: point t = 8 i + j is row block i = t / 8, column block j = t % 8 -/

theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)

/-- The adjacency's block at point t, at (r, q), is the adjacency at (2048 (t / 8) + r, 1024 (t % 8) + q). -/
theorem ablk_apply (c : Dev nD) (t : Fin cfg1.N) (r : Fin 2048) (q : Fin 1024)
    (h0 : 2048 * (t.val / 8) + r.val < 8192) (h1 : 1024 * (t.val % 8) + q.val < 8192) :
    ablk V c t (ix2 r q) = Aarr V c (ix2 ⟨2048 * (t.val / 8) + r.val, h0⟩ ⟨1024 * (t.val % 8) + q.val, h1⟩) := by
  unfold ablk iblk1
  rw [View.read_apply]
  show V c main_v0 _ = V c main_v0 _
  congr 1
  funext a
  apply Fin.ext
  match a with
  | ⟨0, _⟩ => show win1_0.index t 0 * 2048 + 1 * r.val = 2048 * (t.val / 8) + r.val; rw [(idx1_0 t).1]; omega
  | ⟨1, _⟩ => show win1_0.index t 1 * 1024 + 1 * q.val = 1024 * (t.val % 8) + q.val; rw [(idx1_0 t).2]; omega

/-- The hidden features' block at point t, at (q, d), is the array at (1024 (t % 8) + q, d). -/
theorem hblk_apply (c : Dev nD) (t : Fin cfg1.N) (q : Fin 1024) (d : Fin 256)
    (h0 : 1024 * (t.val % 8) + q.val < 8192) :
    hblk V c t (ix2 q d) = Harr V c (ix2 ⟨1024 * (t.val % 8) + q.val, h0⟩ d) := by
  unfold hblk iblk1
  rw [View.read_apply]
  show V c main_v6 _ = V c main_v6 _
  congr 1
  funext a
  apply Fin.ext
  match a with
  | ⟨0, _⟩ => show win1_1.index t 0 * 1024 + 1 * q.val = 1024 * (t.val % 8) + q.val; rw [(idx1_1 t).1]; omega
  | ⟨1, _⟩ => show win1_1.index t 1 * 256 + 1 * d.val = d.val; rw [(idx1_1 t).2]; omega

theorem ablk_eq (c : Dev nD) (t : Fin cfg1.N) (r : Fin 2048) (q : Fin 1024) :
    ablk V c t (ix2 r q) = Af V c (2048 * (t.val / 8) + r.val) (1024 * (t.val % 8) + q.val) := by
  have hN : cfg1.N = 32 := N_1
  have ht := t.isLt; have hr := r.isLt; have hq := q.isLt
  have h0 : 2048 * (t.val / 8) + r.val < 8192 := by omega
  have h1 : 1024 * (t.val % 8) + q.val < 8192 := by omega
  unfold Af
  rw [dif_pos ⟨h0, h1⟩]
  exact ablk_apply V c t r q h0 h1

theorem hblk_eq (c : Dev nD) (t : Fin cfg1.N) (q : Fin 1024) (d : Fin 256) :
    hblk V c t (ix2 q d) = Hf V c (1024 * (t.val % 8) + q.val) d.val := by
  have hq := q.isLt
  have h0 : 1024 * (t.val % 8) + q.val < 8192 := by omega
  unfold Hf
  rw [dif_pos ⟨h0, d.isLt⟩]
  exact hblk_apply V c t q d h0

/-! ## The partial sums over column blocks -/

/-- Column block jb's share of the product row R, feature d. -/
def term0 (c : Dev nD) (R jb d : ℕ) : EReal :=
  ∑ q ∈ Finset.range 1024, Af V c R (1024 * jb + q) * Hf V c (1024 * jb + q) d
/-- Column block jb's share of the row sum of row R. -/
def term1 (c : Dev nD) (R jb : ℕ) : EReal :=
  ∑ q ∈ Finset.range 1024, Af V c R (1024 * jb + q)
/-- The product's partial sum over column blocks 0 … j. -/
def T0 (c : Dev nD) (R j d : ℕ) : EReal := ∑ jb ∈ Finset.range (j + 1), term0 V c R jb d
/-- The row sum's partial sum over column blocks 0 … j. -/
def T1 (c : Dev nD) (R j : ℕ) : EReal := ∑ jb ∈ Finset.range (j + 1), term1 V c R jb

theorem T0_zero (c : Dev nD) (R d : ℕ) : T0 V c R 0 d = term0 V c R 0 d := Finset.sum_range_one _
theorem T1_zero (c : Dev nD) (R : ℕ) : T1 V c R 0 = term1 V c R 0 := Finset.sum_range_one _
theorem T0_succ (c : Dev nD) (R j d : ℕ) : T0 V c R (j + 1) d = T0 V c R j d + term0 V c R (j + 1) d :=
  Finset.sum_range_succ _ _
theorem T1_succ (c : Dev nD) (R j : ℕ) : T1 V c R (j + 1) = T1 V c R j + term1 V c R (j + 1) :=
  Finset.sum_range_succ _ _

/-- At a point that is not the first of its row block, the partial sum is the one of the point before plus the
    point's own column block. -/
theorem T0_step (c : Dev nD) (n r d : ℕ) (h : ¬n % 8 = 0) :
    T0 V c (2048 * ((n - 1) / 8) + r) ((n - 1) % 8) d + term0 V c (2048 * (n / 8) + r) (n % 8) d
      = T0 V c (2048 * (n / 8) + r) (n % 8) d := by
  have hd : (n - 1) / 8 = n / 8 := by omega
  have hm : n % 8 = (n - 1) % 8 + 1 := by omega
  rw [hd, hm]
  exact (T0_succ V c _ _ _).symm
theorem T1_step (c : Dev nD) (n r : ℕ) (h : ¬n % 8 = 0) :
    T1 V c (2048 * ((n - 1) / 8) + r) ((n - 1) % 8) + term1 V c (2048 * (n / 8) + r) (n % 8)
      = T1 V c (2048 * (n / 8) + r) (n % 8) := by
  have hd : (n - 1) / 8 = n / 8 := by omega
  have hm : n % 8 = (n - 1) % 8 + 1 := by omega
  rw [hd, hm]
  exact (T1_succ V c _ _).symm

/-- The point's own share of the product, read off its two blocks. -/
theorem blk_term0 (c : Dev nD) (t : Fin cfg1.N) (r : Fin 2048) (d : Fin 256) :
    ∑ q : Fin 1024, ablk V c t (ix2 r q) * hblk V c t (ix2 q d)
      = term0 V c (2048 * (t.val / 8) + r.val) (t.val % 8) d.val := by
  refine (Finset.sum_congr rfl fun q _ => ?_).trans
    (Finset.sum_range fun q => Af V c (2048 * (t.val / 8) + r.val) (1024 * (t.val % 8) + q) * Hf V c (1024 * (t.val % 8) + q) d.val).symm
  rw [ablk_eq, hblk_eq]
/-- The point's own share of the row sum, read off the adjacency's block. -/
theorem blk_term1 (c : Dev nD) (t : Fin cfg1.N) (r : Fin 2048) :
    ∑ q : Fin 1024, ablk V c t (ix2 r q) = term1 V c (2048 * (t.val / 8) + r.val) (t.val % 8) := by
  refine (Finset.sum_congr rfl fun q _ => ?_).trans
    (Finset.sum_range fun q => Af V c (2048 * (t.val / 8) + r.val) (1024 * (t.val % 8) + q)).symm
  rw [ablk_eq]

/-! ## One step of each accumulator, at an entry -/

/-- The product step at the first point of a row block: the reset's zero plus the point's own share. -/
theorem pay4_first (c : Dev nD) (t : Fin cfg1.N) (h0 : t.val % 8 = 0) (r : Fin 2048) (d : Fin 256) :
    k1_pay4 (F := Ideal) (ablk V c t) (hblk V c t) (k1_pay1 (F := Ideal)) (ix2 r d)
      = T0 V c (2048 * (t.val / 8) + r.val) (t.val % 8) d.val := by
  refine (Cert.Pay1.acc0 (ablk V c t) (hblk V c t) (k1_pay1 (F := Ideal)) r d).trans ?_
  rw [Cert.Pay1.reset0, zero_add, blk_term0, h0]
  exact (T0_zero V c _ _).symm

/-- The product step at a later point: the partial sum of the point before plus the point's own share. -/
theorem pay4_next (c : Dev nD) (t : Fin cfg1.N) (h0 : ¬t.val % 8 = 0) (prev0 : Vec Ideal S2048x256 .f32)
    (ih : ∀ (r : Fin 2048) (d : Fin 256),
      prev0 (ix2 r d) = T0 V c (2048 * ((t.val - 1) / 8) + r.val) ((t.val - 1) % 8) d.val)
    (r : Fin 2048) (d : Fin 256) :
    k1_pay4 (F := Ideal) (ablk V c t) (hblk V c t) prev0 (ix2 r d)
      = T0 V c (2048 * (t.val / 8) + r.val) (t.val % 8) d.val := by
  refine (Cert.Pay1.acc0 (ablk V c t) (hblk V c t) prev0 r d).trans ?_
  rw [ih r d, blk_term0]
  exact T0_step V c t.val r.val d.val h0

/-- The row-sum step at the first point of a row block. -/
theorem pay5_first (c : Dev nD) (t : Fin cfg1.N) (h0 : t.val % 8 = 0) (r : Fin 2048) (l : Fin 128) :
    k1_pay5 (F := Ideal) (ablk V c t) (k1_pay2 (F := Ideal)) (ix2 r l)
      = T1 V c (2048 * (t.val / 8) + r.val) (t.val % 8) := by
  refine (Cert.Pay1.acc1 (ablk V c t) (k1_pay2 (F := Ideal)) r l).trans ?_
  rw [Cert.Pay1.reset1, zero_add, blk_term1, h0]
  exact (T1_zero V c _).symm

/-- The row-sum step at a later point. -/
theorem pay5_next (c : Dev nD) (t : Fin cfg1.N) (h0 : ¬t.val % 8 = 0) (prev1 : Vec Ideal S2048x128 .f32)
    (ih : ∀ (r : Fin 2048) (l : Fin 128),
      prev1 (ix2 r l) = T1 V c (2048 * ((t.val - 1) / 8) + r.val) ((t.val - 1) % 8))
    (r : Fin 2048) (l : Fin 128) :
    k1_pay5 (F := Ideal) (ablk V c t) prev1 (ix2 r l)
      = T1 V c (2048 * (t.val / 8) + r.val) (t.val % 8) := by
  refine (Cert.Pay1.acc1 (ablk V c t) prev1 r l).trans ?_
  rw [ih r l, blk_term1]
  exact T1_step V c t.val r.val h0

/-! ## The two accumulators after each point -/

/-- After point n = 8 i + j the product accumulator holds, at (r, d), the partial sum over column blocks 0 … j of
    row 2048 i + r of the adjacency against column d of the hidden features, and the row-sum accumulator holds, in
    every lane, the partial row sum over the same column blocks. -/
def Inv (c : Dev nD) (n : ℕ) (hn : n < cfg1.N) : Prop :=
  (∀ (r : Fin 2048) (d : Fin 256),
      (outsAt1 V c n hn).2.1 (ix2 r d) = T0 V c (2048 * (n / 8) + r.val) (n % 8) d.val) ∧
  (∀ (r : Fin 2048) (l : Fin 128),
      (outsAt1 V c n hn).2.2 (ix2 r l) = T1 V c (2048 * (n / 8) + r.val) (n % 8))

/-- At the first point of a row block both accumulators are reset and then updated once. -/
theorem inv_A (c : Dev nD) (t : Fin cfg1.N) (h0 : t.val % 8 = 0) : Inv V c t.val t.isLt := by
  have h1 : ¬t.val % 8 = 7 := by omega
  unfold Inv
  rw [outsAt1_A V c t h0 h1]
  dsimp only
  refine ⟨fun r d => ?_, fun r l => ?_⟩
  · refine (congrFun (piece_A_0 (F := Ideal) c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (ablk V c t) (hblk V c t)) (ix2 r d)).trans ?_
    exact pay4_first V c t h0 r d
  · refine (congrFun (piece_A_1 (F := Ideal) c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (ablk V c t) (hblk V c t)) (ix2 r l)).trans ?_
    exact pay5_first V c t h0 r l

/-- At every other point both accumulators are updated from what the point before left. -/
theorem inv_step (c : Dev nD) (t : Fin cfg1.N) (h0 : ¬t.val % 8 = 0)
    (ih : Inv V c (t.val - 1) (Nat.lt_of_le_of_lt (Nat.sub_le _ _) t.isLt)) : Inv V c t.val t.isLt := by
  unfold Inv at ih ⊢
  by_cases h1 : t.val % 8 = 7
  · rw [outsAt1_C V c t h0 h1]
    dsimp only
    refine ⟨fun r d => ?_, fun r l => ?_⟩
    · refine (congrFun (piece_C_0 (F := Ideal) c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ablk V c t) (hblk V c t) (outsAt1 V c (t.val - 1) (Nat.lt_of_le_of_lt (Nat.sub_le _ _) t.isLt)).2.1 (outsAt1 V c (t.val - 1) (Nat.lt_of_le_of_lt (Nat.sub_le _ _) t.isLt)).2.2) (ix2 r d)).trans ?_
      exact pay4_next V c t h0 (outsAt1 V c (t.val - 1) (Nat.lt_of_le_of_lt (Nat.sub_le _ _) t.isLt)).2.1 ih.1 r d
    · refine (congrFun (piece_C_1 (F := Ideal) c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ablk V c t) (hblk V c t) (outsAt1 V c (t.val - 1) (Nat.lt_of_le_of_lt (Nat.sub_le _ _) t.isLt)).2.1 (outsAt1 V c (t.val - 1) (Nat.lt_of_le_of_lt (Nat.sub_le _ _) t.isLt)).2.2) (ix2 r l)).trans ?_
      exact pay5_next V c t h0 (outsAt1 V c (t.val - 1) (Nat.lt_of_le_of_lt (Nat.sub_le _ _) t.isLt)).2.2 ih.2 r l
  · rw [outsAt1_B V c t h0 h1]
    dsimp only
    refine ⟨fun r d => ?_, fun r l => ?_⟩
    · refine (congrFun (piece_B_0 (F := Ideal) c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (ablk V c t) (hblk V c t) (outsAt1 V c (t.val - 1) (Nat.lt_of_le_of_lt (Nat.sub_le _ _) t.isLt)).2.1 (outsAt1 V c (t.val - 1) (Nat.lt_of_le_of_lt (Nat.sub_le _ _) t.isLt)).2.2) (ix2 r d)).trans ?_
      exact pay4_next V c t h0 (outsAt1 V c (t.val - 1) (Nat.lt_of_le_of_lt (Nat.sub_le _ _) t.isLt)).2.1 ih.1 r d
    · refine (congrFun (piece_B_1 (F := Ideal) c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (ablk V c t) (hblk V c t) (outsAt1 V c (t.val - 1) (Nat.lt_of_le_of_lt (Nat.sub_le _ _) t.isLt)).2.1 (outsAt1 V c (t.val - 1) (Nat.lt_of_le_of_lt (Nat.sub_le _ _) t.isLt)).2.2) (ix2 r l)).trans ?_
      exact pay5_next V c t h0 (outsAt1 V c (t.val - 1) (Nat.lt_of_le_of_lt (Nat.sub_le _ _) t.isLt)).2.2 ih.2 r l

/-- The invariant at every point, by induction on the point. -/
theorem inv (c : Dev nD) : ∀ (n : ℕ) (hn : n < cfg1.N), Inv V c n hn := by
  intro n
  induction n with
  | zero => intro hn; exact inv_A V c ⟨0, hn⟩ (Nat.zero_mod 8)
  | succ m ih =>
    intro hn
    by_cases h0 : (m + 1) % 8 = 0
    · exact inv_A V c ⟨m + 1, hn⟩ h0
    · exact inv_step V c ⟨m + 1, hn⟩ h0 (ih (Nat.lt_of_succ_lt hn))

/-! ## What the last point of a row block stores into the output window -/

/-- At the last point of row block i the output window's buffer holds, at (r, d), the full product sum of row
    2048 i + r divided by its full row sum plus eps. -/
theorem out_C (c : Dev nD) (t : Fin cfg1.N) (h7 : t.val % 8 = 7) (r : Fin 2048) (d : Fin 256) :
    (outsAt1 V c t.val t.isLt).1 (ix2 r d)
      = Ideal.div (T0 V c (2048 * (t.val / 8) + r.val) 7 d.val)
          (T1 V c (2048 * (t.val / 8) + r.val) 7 + Cert.Spec.eps) := by
  have h0 : ¬t.val % 8 = 0 := by omega
  have ih := inv V c (t.val - 1) (Nat.lt_of_le_of_lt (Nat.sub_le _ _) t.isLt)
  unfold Inv at ih
  have e0 := pay4_next V c t h0 (outsAt1 V c (t.val - 1) (Nat.lt_of_le_of_lt (Nat.sub_le _ _) t.isLt)).2.1 ih.1 r d
  have e1 := pay5_next V c t h0 (outsAt1 V c (t.val - 1) (Nat.lt_of_le_of_lt (Nat.sub_le _ _) t.isLt)).2.2 ih.2 r (0 : Fin 128)
  rw [h7] at e0 e1
  rw [outsAt1_C V c t h0 h7]
  dsimp only
  refine (congrFun (piece_C_2 (F := Ideal) c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h7) (ablk V c t) (hblk V c t) (outsAt1 V c (t.val - 1) (Nat.lt_of_le_of_lt (Nat.sub_le _ _) t.isLt)).2.1 (outsAt1 V c (t.val - 1) (Nat.lt_of_le_of_lt (Nat.sub_le _ _) t.isLt)).2.2) (ix2 r d)).trans ?_
  refine (Cert.Pay1.fin _ _ r d).trans ?_
  rw [col_apply, e0, e1]

/-! ## From blocks to the array -/

/-- The array the output ends holding: at (R, d), the full product sum of row R divided by its full row sum plus
    eps, the sums taken column block by column block. -/
def Garr (c : Dev nD) : Buf (Elt Ideal) ((c : Thread nD τ).loc main_v7) := fun idx =>
  Ideal.div (T0 V c (idx 0).val 7 (idx 1).val) (T1 V c (idx 0).val 7 + Cert.Spec.eps)

theorem Garr_apply (c : Dev nD) (R : Fin 8192) (d : Fin 256) :
    Garr V c (ix2 R d) = Ideal.div (T0 V c R.val 7 d.val) (T1 V c R.val 7 + Cert.Spec.eps) := rfl

/-- The output window's block at point t, read off an 8192 × 256 array at (r, d), is the array at
    (2048 (t / 8) + r, d). -/
theorem oblk_apply (c : Dev nD) (G : Buf (Elt Ideal) ((c : Thread nD τ).loc main_v7)) (t : Fin cfg1.N)
    (r : Fin 2048) (d : Fin 256) (h0 : 2048 * (t.val / 8) + r.val < 8192) :
    ((cfg1.win 2).blk t).view.read (Elt Ideal) G (ix2 r d) = G (ix2 ⟨2048 * (t.val / 8) + r.val, h0⟩ d) := by
  rw [View.read_apply]
  show G _ = G _
  congr 1
  funext a
  apply Fin.ext
  match a with
  | ⟨0, _⟩ => show win1_2.index t 0 * 2048 + 1 * r.val = 2048 * (t.val / 8) + r.val; rw [(idx1_2 t).1]; omega
  | ⟨1, _⟩ => show win1_2.index t 1 * 256 + 1 * d.val = d.val; rw [(idx1_2 t).2]; omega

/-- The write-back moves the whole block: the window is not cut. -/
theorem cut_apply (X : Vec Ideal S2048x256 .f32) (t : Fin cfg1.N) (r : Fin 2048) (d : Fin 256) :
    (cfg1.win 2).cut (grid1.coords t) X (ix2 r d) = X (ix2 r d) := rfl

/-- What each write-back writes is its block of the array above: only the last point of a row block writes back. -/
theorem flushed_eq (c : Dev nD) (t : Fin cfg1.N) (hf : (cfg1.win 2).flush t = true) :
    (dat1 V c).flushed 2 t = ((cfg1.win 2).blk t).view.read (Elt Ideal) (Garr V c) := by
  have hN : cfg1.N = 32 := N_1
  have h7 : t.val % 8 = 7 := (flush1_2 t).mp hf
  show (cfg1.win 2).cut (grid1.coords t) ((dat1 V c).after 2 t) = _
  rw [after1_2]
  funext y
  obtain ⟨r, d, rfl⟩ : ∃ (r : Fin 2048) (d : Fin 256), y = ix2 r d := ⟨y 0, y 1, eq_ix2 (n0 := 2048) (n1 := 256) y⟩
  have ht := t.isLt
  have hr := r.isLt
  have h0 : 2048 * (t.val / 8) + r.val < 8192 := by omega
  refine (cut_apply _ t r d).trans ?_
  refine (out_C V c t h7 r d).trans ?_
  exact (oblk_apply c (Garr V c) t r d h0).symm

/-- Row R of the array is written by the last point of row block R / 2048; so the array ends holding the array above. -/
theorem arr_eq (c : Dev nD) : (dat1 V c).arrAt 2 cfg1.N = Garr V c :=
  (dat1 V c).arrAt_eq_of_cover 2 (Garr V c) (flushed_eq V c) fun i => by
    have hN : cfg1.N = 32 := N_1
    have hi0 : (i 0 : ℕ) < 8192 := (i 0).isLt
    have hi1 : (i 1 : ℕ) < 256 := (i 1).isLt
    have hlt : 8 * ((i 0 : ℕ) / 2048) + 7 < cfg1.N := by omega
    refine ⟨⟨8 * ((i 0 : ℕ) / 2048) + 7, hlt⟩, (flush1_2 _).mpr (by dsimp only; omega), ?_⟩
    show i ∈ ((View.whole main_v7).slice (win1_2.rect ⟨8 * ((i 0 : ℕ) / 2048) + 7, hlt⟩)).set
    rw [View.set_slice_whole, Rect.mem_set_unit]
    intro a
    match a with
    | ⟨0, _⟩ =>
      show win1_2.index ⟨8 * ((i 0 : ℕ) / 2048) + 7, hlt⟩ 0 * 2048 ≤ (i 0 : ℕ)
        ∧ (i 0 : ℕ) < win1_2.index ⟨8 * ((i 0 : ℕ) / 2048) + 7, hlt⟩ 0 * 2048 + 2048
      rw [(idx1_2 ⟨8 * ((i 0 : ℕ) / 2048) + 7, hlt⟩).1]
      dsimp only
      omega
    | ⟨1, _⟩ =>
      show win1_2.index ⟨8 * ((i 0 : ℕ) / 2048) + 7, hlt⟩ 1 * 256 ≤ (i 1 : ℕ)
        ∧ (i 1 : ℕ) < win1_2.index ⟨8 * ((i 0 : ℕ) / 2048) + 7, hlt⟩ 1 * 256 + 256
      rw [(idx1_2 ⟨8 * ((i 0 : ℕ) / 2048) + 7, hlt⟩).2]
      omega

/-! ## The sums over column blocks are the sums over all 8192 columns -/

/-- m consecutive blocks of 1024 terms are the first 1024 m terms: only the sum over a range split at a point. -/
theorem sum_blocks {M : Type*} [AddCommMonoid M] (f : ℕ → M) (m : ℕ) :
    ∑ jb ∈ Finset.range m, ∑ q ∈ Finset.range 1024, f (1024 * jb + q) = ∑ k ∈ Finset.range (1024 * m), f k := by
  induction m with
  | zero => rfl
  | succ m ih => rw [Finset.sum_range_succ, ih, Nat.mul_succ, Finset.sum_range_add]

theorem Af_fin (c : Dev nD) (R k : Fin 8192) : Af V c R.val k.val = Aarr V c (ix2 R k) := by
  unfold Af
  rw [dif_pos ⟨R.isLt, k.isLt⟩]
theorem Hf_fin (c : Dev nD) (k : Fin 8192) (d : Fin 256) : Hf V c k.val d.val = Harr V c (ix2 k d) := by
  unfold Hf
  rw [dif_pos ⟨k.isLt, d.isLt⟩]

/-- The product's partial sum over all eight column blocks is the sum over all 8192 columns. -/
theorem T0_full (c : Dev nD) (R : Fin 8192) (d : Fin 256) :
    T0 V c R.val 7 d.val = ∑ k : Fin 8192, Aarr V c (ix2 R k) * Harr V c (ix2 k d) := by
  have e : T0 V c R.val 7 d.val = ∑ k ∈ Finset.range 8192, Af V c R.val k * Hf V c k d.val :=
    sum_blocks (fun k => Af V c R.val k * Hf V c k d.val) 8
  rw [e, Finset.sum_range]
  exact Finset.sum_congr rfl fun k _ => by rw [Af_fin, Hf_fin]

/-- The row sum's partial sum over all eight column blocks is the sum over all 8192 columns. -/
theorem T1_full (c : Dev nD) (R : Fin 8192) :
    T1 V c R.val 7 = ∑ k : Fin 8192, Aarr V c (ix2 R k) := by
  have e : T1 V c R.val 7 = ∑ k ∈ Finset.range 8192, Af V c R.val k :=
    sum_blocks (fun k => Af V c R.val k) 8
  rw [e, Finset.sum_range]
  exact Finset.sum_congr rfl fun k _ => Af_fin V c R k

/-! ## The output array after the region -/

/-- After the region the pooled array holds, at (R, d), the adjacency's row R against the hidden features' column d,
    divided by the adjacency's row sum plus eps. -/
theorem arr1 (c : Dev nD) (R : Fin 8192) (d : Fin 256) :
    (dat1 V c).arrAt 2 cfg1.N (ix2 R d)
      = Ideal.div (∑ k : Fin 8192, Aarr V c (ix2 R k) * Harr V c (ix2 k d))
          (∑ k : Fin 8192, Aarr V c (ix2 R k) + Cert.Spec.eps) := by
  rw [arr_eq, Garr_apply, T0_full, T1_full]

/-- The same in the specification's words: the pooled array is the eps-regularised neighbourhood average of the
    hidden features. -/
theorem arr1_spec (c : Dev nD) (R : Fin 8192) (d : Fin 256) :
    (dat1 V c).arrAt 2 cfg1.N (ix2 R d)
      = Cert.Spec.pool (fun r k => V c main_v0 (ix2 r k)) (fun k d => V c main_v6 (ix2 k d)) R d :=
  arr1 V c R d

end Cert.Arr1
-- ==== Proof.Value.Arr2.lean ====
/- REGION 2's OUTPUT ARRAY after the region, at the ideal instance, index by index: row R, feature e holds
     max (Σ_q X R q · W1 q e + Σ_q P R q · W2 q e + b e, 0) + ε
   of the five arrays the region finds (X, P of 8192 rows; W1, W2 of 256 x 256; b a row of 256). The grid has 4
   points; point t computes rows 2048·t … 2048·t + 2047 from rows 2048·t … of X and P and the whole of W1, W2, b,
   and writes them back; the 4 row blocks tile the array. -/
import proofs.«101960_j84868553769261_1_alg».proof.Proof.KernelIdeal.Reg2
import proofs.«101960_j84868553769261_1_alg».proof.Proof.Value.Pay02
import proofs.«101960_j84868553769261_1_alg».proof.Proof.Value.Spec
import Idealize.ShloMosaic.Lib.Pipeline.Value
import Idealize.ShloMosaic.Lib.ValueIdx

set_option maxRecDepth 16384

noncomputable section

open scoped BigOperators

namespace Cert.Arr2

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem hz : (![0, 0] : Fin 2 → Nat) = fun _ => 0 := funext fun a => by fin_cases a <;> rfl

/-- The second layer at row i 0, feature i 1, of five arrays: max (X·W1 + P·W2 + b, 0) + ε. -/
def layer (A1 A7 : S8192x256.Idx → EReal) (A4 A5 : S256x256.Idx → EReal) (A3 : S1x256.Idx → EReal) : S8192x256.Idx → EReal := fun i =>
  max (∑ q : Fin 256, A1 (ix2 (i 0) q) * A4 (ix2 q (i 1))
      + ∑ q : Fin 256, A7 (ix2 (i 0) q) * A5 (ix2 q (i 1))
      + A3 (ix2 (0 : Fin 1) (i 1))) 0 + Cert.Spec.eps

/-- The windows' block indices over the grid of 4 points: the two row-blocked inputs and the output are at row block t,
    the three whole-array inputs at block 0; every column block index is 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 4 :=
  (by decide +kernel : ∀ t : Fin grid2.N, _)

/-- The payload at a block coordinate, when the two row blocks are rows 2048·k … of two arrays and the three whole
    blocks are three arrays: the second layer of the five arrays at row 2048·k + p. -/
theorem point (k : Nat) (hk : k < 4)
    (A1 A7 : S8192x256.Idx → EReal) (A4 A5 : S256x256.Idx → EReal) (A3 : S1x256.Idx → EReal)
    (x0 x1 : Vec Ideal S2048x256 .f32) (x2 x3 : Vec Ideal S256x256 .f32) (x4 : Vec Ideal S1x256 .f32)
    (h0 : ∀ (p : Fin 2048) (q : Fin 256), x0 (ix2 p q) = A1 (ix2 (⟨k * 2048 + p.val, by omega⟩ : Fin 8192) q))
    (h1 : ∀ (p : Fin 2048) (q : Fin 256), x1 (ix2 p q) = A7 (ix2 (⟨k * 2048 + p.val, by omega⟩ : Fin 8192) q))
    (h2 : ∀ (p : Fin 256) (q : Fin 256), x2 (ix2 p q) = A4 (ix2 p q))
    (h3 : ∀ (p : Fin 256) (q : Fin 256), x3 (ix2 p q) = A5 (ix2 p q))
    (h4 : ∀ (q : Fin 256), x4 (ix2 (0 : Fin 1) q) = A3 (ix2 (0 : Fin 1) q))
    (p : Fin 2048) (e : Fin 256) :
    k2_pay1 (F := Ideal) x0 x1 x2 x3 x4 (ix2 p e)
      = layer A1 A7 A4 A5 A3 (ix2 (⟨k * 2048 + p.val, by omega⟩ : Fin 8192) e) := by
  rw [Cert.Pay02.pay2]
  simp only [h0, h1, h2, h3, h4]
  rfl

/-- What point t writes back is block t (rows 2048·t …) of the second layer of the five arrays the region finds:
    each input block is read where the output block's coordinates say. -/
theorem flushed_eq (c : Dev nD) (t : Fin cfg2.N) :
    (dat2 V c).flushed 5 t = ((cfg2.win 5).blk t).view.read (Elt Ideal)
      (layer (V c main_v1) (V c main_v7) (V c main_v4) (V c main_v5) (V c main_v3)) := by
  show (cfg2.win 5).cut (grid2.coords t) ((dat2 V c).after 5 t) = _
  rw [after2_5]
  unfold out2_5
  rw [View.canon_unit_zero hz]
  simp only [View.ld_unit_zero (S := S2048x256) hz, View.ld_unit_zero (S := S256x256) hz, View.ld_unit_zero (S := S1x256) hz]
  obtain ⟨e00, e01, e10, e11, e20, e21, e30, e31, e40, e41, e50, e51, ht⟩ := idx_facts t
  funext j
  obtain ⟨p, q, rfl⟩ : ∃ (p : Fin 2048) (q : Fin 256), j = ix2 p q := ⟨j 0, j 1, eq_ix2 j⟩
  refine (point t.val ht (V c main_v1) (V c main_v7) (V c main_v4) (V c main_v5) (V c main_v3) _ _ _ _ _ ?_ ?_ ?_ ?_ ?_ p q).trans ?_
  · intro p q
    show V c main_v1 (((cfg2.win 0).blk t).view.emb (ix2 p q)) = V c main_v1 (ix2 _ q)
    refine congrArg _ (funext fun a => Fin.ext ?_)
    match a with
    | ⟨0, _⟩ => show win2_0.index t (0 : Fin 2) * 2048 + 1 * p.val = t.val * 2048 + p.val; omega
    | ⟨1, _⟩ => show win2_0.index t (1 : Fin 2) * 256 + 1 * q.val = q.val; omega
  · intro p q
    show V c main_v7 (((cfg2.win 1).blk t).view.emb (ix2 p q)) = V c main_v7 (ix2 _ q)
    refine congrArg _ (funext fun a => Fin.ext ?_)
    match a with
    | ⟨0, _⟩ => show win2_1.index t (0 : Fin 2) * 2048 + 1 * p.val = t.val * 2048 + p.val; omega
    | ⟨1, _⟩ => show win2_1.index t (1 : Fin 2) * 256 + 1 * q.val = q.val; omega
  · intro p q
    show V c main_v4 (((cfg2.win 2).blk t).view.emb (ix2 p q)) = V c main_v4 (ix2 p q)
    refine congrArg _ (funext fun a => Fin.ext ?_)
    match a with
    | ⟨0, _⟩ => show win2_2.index t (0 : Fin 2) * 256 + 1 * p.val = p.val; omega
    | ⟨1, _⟩ => show win2_2.index t (1 : Fin 2) * 256 + 1 * q.val = q.val; omega
  · intro p q
    show V c main_v5 (((cfg2.win 3).blk t).view.emb (ix2 p q)) = V c main_v5 (ix2 p q)
    refine congrArg _ (funext fun a => Fin.ext ?_)
    match a with
    | ⟨0, _⟩ => show win2_3.index t (0 : Fin 2) * 256 + 1 * p.val = p.val; omega
    | ⟨1, _⟩ => show win2_3.index t (1 : Fin 2) * 256 + 1 * q.val = q.val; omega
  · intro q
    show V c main_v3 (((cfg2.win 4).blk t).view.emb (ix2 (0 : Fin 1) q)) = V c main_v3 (ix2 (0 : Fin 1) q)
    refine congrArg _ (funext fun a => Fin.ext ?_)
    match a with
    | ⟨0, _⟩ => show win2_4.index t (0 : Fin 2) * 1 + 1 * (0 : Fin 1).val = (0 : Fin 1).val; omega
    | ⟨1, _⟩ => show win2_4.index t (1 : Fin 2) * 256 + 1 * q.val = q.val; omega
  · show _ = layer (V c main_v1) (V c main_v7) (V c main_v4) (V c main_v5) (V c main_v3) (((cfg2.win 5).blk t).view.emb (ix2 p q))
    refine congrArg _ (funext fun a => Fin.ext ?_)
    match a with
    | ⟨0, _⟩ => show t.val * 2048 + p.val = win2_5.index t (0 : Fin 2) * 2048 + 1 * p.val; omega
    | ⟨1, _⟩ => show q.val = win2_5.index t (1 : Fin 2) * 256 + 1 * q.val; omega

/-- An index of the array is in point t's block iff each coordinate is in the block's range on its axis. -/
theorem mem_blk (t : Fin cfg2.N) (i : S8192x256.Idx) :
    i ∈ ((cfg2.win 5).blk t).view.set ↔ ∀ a : Fin 2, win2_5.index t a * S2048x256.size a ≤ (i a).val ∧ (i a).val < win2_5.index t a * S2048x256.size a + S2048x256.size a := by
  show i ∈ ((View.whole main_v8).slice (win2_5.rect t)).set ↔ _
  rw [View.set_slice_whole, Rect.mem_set_unit]
  exact Iff.rfl

/-- Row R of the array is in the block of point R / 2048, which writes back. -/
theorem cover (i : S8192x256.Idx) :
    ∃ t : Fin cfg2.N, (cfg2.win 5).flush t = true ∧ i ∈ ((cfg2.win 5).blk t).view.set := by
  have hi0 : (i 0).val < 8192 := idx2_lt0 i
  have hi1 : (i 1).val < 256 := idx2_lt1 i
  have hN : cfg2.N = 4 := N_2
  obtain ⟨t, ht⟩ : ∃ t : Fin cfg2.N, t.val = (i 0).val / 2048 := ⟨⟨(i 0).val / 2048, by omega⟩, rfl⟩
  obtain ⟨-, -, -, -, -, -, -, -, -, -, e50, e51, -⟩ := idx_facts t
  refine ⟨t, flush2_5 t, ?_⟩
  rw [mem_blk]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 256 ≤ (i 1).val ∧ (i 1).val < win2_5.index t (1 : Fin 2) * 256 + 256; omega

/-- The output array after the region: the second layer of the five arrays the region finds. -/
theorem arr2_fun (c : Dev nD) :
    (dat2 V c).arrAt 5 cfg2.N = layer (V c main_v1) (V c main_v7) (V c main_v4) (V c main_v5) (V c main_v3) :=
  (dat2 V c).arrAt_eq_of_cover 5 _ (fun t _ => flushed_eq V c t) cover

-- the product and the sum of two extended reals, for entries read off arrays whose element type is the
-- extended reals only after unfolding the buffers' signature
local infixl:70 " ⊛ " => (HMul.hMul : EReal → EReal → EReal)
local infixl:65 " ⊕ " => (HAdd.hAdd : EReal → EReal → EReal)

/-- The same, index by index. -/
theorem arr2 (c : Dev nD) (R : Fin 8192) (e : Fin 256) :
    (dat2 V c).arrAt 5 cfg2.N (ix2 R e)
      = max ((∑ q : Fin 256, V c main_v1 (ix2 R q) ⊛ V c main_v4 (ix2 q e))
          + (∑ q : Fin 256, V c main_v7 (ix2 R q) ⊛ V c main_v5 (ix2 q e))
          ⊕ V c main_v3 (ix2 (0 : Fin 1) e)) 0 + Cert.Spec.eps := by
  rw [arr2_fun]
  rfl

/-- The same against the specification's second layer, the arrays read as curried functions. -/
theorem arr2_spec (c : Dev nD) (R : Fin 8192) (e : Fin 256) :
    (dat2 V c).arrAt 5 cfg2.N (ix2 R e)
      = Cert.Spec.pre (fun r q => V c main_v1 (ix2 r q)) (fun r q => V c main_v7 (ix2 r q))
          (fun q e => V c main_v4 (ix2 q e)) (fun q e => V c main_v5 (ix2 q e)) (fun e => V c main_v3 (ix2 (0 : Fin 1) e)) R e := by
  rw [arr2_fun]
  rfl

end Cert.Arr2
end
-- ==== Proof.Value.HostOps.lean ====
/-
  The host operations before and after the three kernels, read at one entry over the extended reals.

  Before the kernels the program only re-lays its arguments out, so every entry of a result is one entry of an argument:

    the 8192×8192 adjacency at (R, k) is the 1×8192×8192 argument at (0, R, k)      (a leading unit axis dropped)
    the 8192×256 features at (R, q) are the 1×8192×256 argument at (0, R, q)        (likewise)
    each 1×256 bias row at (0, e) is the 256-vector argument at e                   (a leading unit axis added)
    the two 256×256 halves of the 512×256 second-layer weights at (q, e) are the weights at (q, e) and (256 + q, e)
                                                                                    (rows cut from 0 and from 256)

  and an argument no operation writes is left as it was. A cast between shapes keeps the row-major position, and
  0·8192 + R = R; a cut along the rows from offset o reads row o + q.

  After the kernels the program divides the 8192×256 array P by its regularised Euclidean norm and adds a leading unit axis:

    result (0, R, e) = P (R, e) / (sqrt (∑_r ∑_e' P (r, e') · P (r, e')) + eps).

  The square, the division, the square root and the addition are entrywise and exact; the reduction over both axes into
  the rank-zero shape is the initial value plus the sum over every index, the initial value's word is the extended real 0,
  and a sum over the index set of a matrix is the double sum over its coordinates; the rank-zero scalar repeated over the
  array reads the scalar; the result's axes 1 and 2 are the operand's axes 0 and 1. The regulariser's word is never
  evaluated.
-/
import proofs.«101960_j84868553769261_1_alg».proof.Proof.Gen.KernelIdeal.Launch
import proofs.«101960_j84868553769261_1_alg».proof.Proof.Gen.KernelIdeal.Regions
import proofs.«101960_j84868553769261_1_alg».proof.Proof.Value.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.HostOps

open Cert.KernelIdeal Cert.KernelIdeal.Gen Idealize.ShloMosaic Idealize.ShloMosaic.ValueIdx

/-! ## Before the kernels: every result entry is one argument entry -/

/-- The adjacency with its leading unit axis dropped: entry (R, k) is the argument's entry (0, R, k). -/
theorem pre_v0 (W : Valuation τ sig (Elt Ideal)) (R k : Fin 8192) :
    (StableHlo.after hostOps0 W (Proc.devRef .tc main_v0) : S8192x8192.Idx → EReal) (ix2 R k)
      = (W (Proc.devRef .tc main_arg0) : S1x8192x8192.Idx → EReal) (ix3 (0 : Fin 1) R k) := by
  after_results
  exact shapeCast_1ab_ab_apply (W (Proc.devRef .tc main_arg0) : S1x8192x8192.Idx → EReal) shapeCasts_S1x8192x8192_S8192x8192 R k

/-- The node features with their leading unit axis dropped: entry (R, q) is the argument's entry (0, R, q). -/
theorem pre_v1 (W : Valuation τ sig (Elt Ideal)) (R : Fin 8192) (q : Fin 256) :
    (StableHlo.after hostOps0 W (Proc.devRef .tc main_v1) : S8192x256.Idx → EReal) (ix2 R q)
      = (W (Proc.devRef .tc main_arg1) : S1x8192x256.Idx → EReal) (ix3 (0 : Fin 1) R q) := by
  after_results
  exact shapeCast_1ab_ab_apply (W (Proc.devRef .tc main_arg1) : S1x8192x256.Idx → EReal) shapeCasts_S1x8192x256_S8192x256 R q

/-- The first layer's bias as a 1×256 row: entry (0, e) is the bias vector's entry e. -/
theorem pre_v2 (W : Valuation τ sig (Elt Ideal)) (e : Fin 256) :
    (StableHlo.after hostOps0 W (Proc.devRef .tc main_v2) : S1x256.Idx → EReal) (ix2 (0 : Fin 1) e)
      = (W (Proc.devRef .tc main_arg3) : S256.Idx → EReal) (ix1 e) := by
  after_results
  exact shapeCast_a_1a_apply (W (Proc.devRef .tc main_arg3) : S256.Idx → EReal) shapeCasts_S256_S1x256 (0 : Fin 1) e

/-- The second layer's bias as a 1×256 row: entry (0, e) is the bias vector's entry e. -/
theorem pre_v3 (W : Valuation τ sig (Elt Ideal)) (e : Fin 256) :
    (StableHlo.after hostOps0 W (Proc.devRef .tc main_v3) : S1x256.Idx → EReal) (ix2 (0 : Fin 1) e)
      = (W (Proc.devRef .tc main_arg5) : S256.Idx → EReal) (ix1 e) := by
  after_results
  exact shapeCast_a_1a_apply (W (Proc.devRef .tc main_arg5) : S256.Idx → EReal) shapeCasts_S256_S1x256 (0 : Fin 1) e

/-- The upper half of the second layer's weights, rows 0 to 255: entry (q, e) is the weights' entry (q, e). -/
theorem pre_v4 (W : Valuation τ sig (Elt Ideal)) (q e : Fin 256) :
    (StableHlo.after hostOps0 W (Proc.devRef .tc main_v4) : S256x256.Idx → EReal) (ix2 q e)
      = (W (Proc.devRef .tc main_arg4) : S512x256.Idx → EReal) (ix2 (⟨q.val, by omega⟩ : Fin 512) e) := by
  after_results
  exact slice2_axis0_apply 0 (W (Proc.devRef .tc main_arg4) : S512x256.Idx → EReal) slices_S512x256_S256x256_0_0 q e
    (⟨q.val, by omega⟩ : Fin 512) (Nat.zero_add _).symm

/-- The lower half of the second layer's weights, rows 256 to 511: entry (q, e) is the weights' entry (256 + q, e). -/
theorem pre_v5 (W : Valuation τ sig (Elt Ideal)) (q e : Fin 256) :
    (StableHlo.after hostOps0 W (Proc.devRef .tc main_v5) : S256x256.Idx → EReal) (ix2 q e)
      = (W (Proc.devRef .tc main_arg4) : S512x256.Idx → EReal) (ix2 (⟨256 + q.val, by omega⟩ : Fin 512) e) := by
  after_results
  exact slice2_axis0_apply 256 (W (Proc.devRef .tc main_arg4) : S512x256.Idx → EReal) slices_S512x256_S256x256_256_0 q e
    (⟨256 + q.val, by omega⟩ : Fin 512) rfl

/-- The first layer's weights are written by none of these operations: they are left as they were. -/
theorem pre_arg2 (W : Valuation τ sig (Elt Ideal)) :
    StableHlo.after hostOps0 W (Proc.devRef .tc main_arg2) = W (Proc.devRef .tc main_arg2) :=
  StableHlo.after_of_writes_sub hostOps0 W hostOps0_writes (by decide)

/-! ## After the kernels: division by the regularised Euclidean norm -/

/-- The sum of the entrywise squares of an 8192×256 array over both axes, from the zero word: the double sum over rows
    and columns of x (r, e) · x (r, e). The reduced shape has rank zero, so every index reduces to its one index. -/
theorem sumsq (x : FVec Ideal S8192x256 .f32) (j : S_.Idx) :
    Host.reduceAdd (F := Ideal) (mulf x x) (constant (F := Ideal) S_ .f32 0x00000000#32) reducesTo_S8192x256_S_d0_1 h_S_ j
      = ∑ r : Fin 8192, ∑ e : Fin 256, x (ix2 r e) * x (ix2 r e) := by
  show Ideal.hostReduceAdd reducesTo_S8192x256_S_d0_1 (mulf x x) (Ideal.ofBits .f32 0x00000000#32) j = _
  rw [Ideal.hostReduceAdd_total reducesTo_S8192x256_S_d0_1 (fun b => b.elim0), Ideal.ofBits_zero_f32, zero_add, sum_idx2]
  rfl

/-- The whole tail on an 8192×256 array x, at (0, R, e): x (R, e) divided by the square root of the sum of squares plus
    the regulariser. The outer repetition reads its operand at (R, e); the inner one reads the rank-zero scalar. -/
theorem tail_at (x : FVec Ideal S8192x256 .f32) (R : Fin 8192) (e : Fin 256) :
    broadcastInDim S1x8192x256 ![1, 2] bcast_S8192x256_S1x8192x256_1_2
      (Host.divf (F := Ideal) x
        (broadcastInDim S8192x256 ![] bcast_S_S8192x256
          (addf
            (Host.sqrt (F := Ideal)
              (Host.reduceAdd (F := Ideal) (mulf x x) (constant (F := Ideal) S_ .f32 0x00000000#32) reducesTo_S8192x256_S_d0_1 h_S_))
            (constant (F := Ideal) S_ .f32 0x322BCC77#32))))
      (ix3 (0 : Fin 1) R e)
    = Cert.Spec.normed (fun r e => x (ix2 r e)) R e := by
  refine (broadcastInDim_apply ![1, 2] bcast_S8192x256_S1x8192x256_1_2 _ (ix3 (0 : Fin 1) R e) (ix2 R e) ?_).trans ?_
  · intro a
    match a with
    | ⟨0, _⟩ => rfl
    | ⟨1, _⟩ => rfl
  show Ideal.div (x (ix2 R e)) (broadcastInDim (s := S_) S8192x256 ![] bcast_S_S8192x256 _ (ix2 R e)) = _
  rw [broadcastInDim_apply (s := S_) ![] bcast_S_S8192x256 _ (ix2 R e) ix0 (fun a => a.elim0)]
  show Ideal.div (x (ix2 R e)) (Ideal.sqrt (Host.reduceAdd (F := Ideal) (mulf x x) (constant (F := Ideal) S_ .f32 0x00000000#32) reducesTo_S8192x256_S_d0_1 h_S_ ix0) + Ideal.ofBits .f32 0x322BCC77#32) = _
  rw [sumsq]
  rfl

/-- The program's result at (0, R, e) is the third kernel's array divided by its regularised Euclidean norm. -/
theorem tail_v15 (W : Valuation τ sig (Elt Ideal)) (R : Fin 8192) (e : Fin 256) :
    (StableHlo.after hostOps3 W (Proc.devRef .tc main_v15) : S1x8192x256.Idx → EReal) (ix3 (0 : Fin 1) R e)
      = Cert.Spec.normed (fun r e => (W (Proc.devRef .tc main_v8) : S8192x256.Idx → EReal) (ix2 r e)) R e := by
  after_results
  exact tail_at (W (Proc.devRef .tc main_v8)) R e

end Cert.HostOps

end
-- ==== Proof.Value.RefRead.lean ====
/-
  The reference program read at an index, stage by stage, against the specification.

  Each theorem reads one named stage of the reference at the index (0, r, e) and states it as the
  specification's function of the stage(s) it is built from: the rectified first layer, the
  neighbourhood average, the second layer on the concatenation, and the division by the global norm.
-/
import proofs.«101960_j84868553769261_1_alg».proof.Proof.Gen.ReferenceIdeal.Read
import proofs.«101960_j84868553769261_1_alg».proof.Proof.Value.Spec

noncomputable section

open scoped BigOperators

namespace Cert.RefRead

open Cert.ReferenceIdeal Cert.ReferenceIdeal.Gen Cert.ReferenceIdeal.Read Idealize.ShloMosaic Idealize.ShloMosaic.ValueIdx

variable (x0 : (⟨S1x8192x8192, .f32⟩ : BufTy).Contents (Elt Ideal))
  (x1 : (⟨S1x8192x256, .f32⟩ : BufTy).Contents (Elt Ideal))
  (x2 : (⟨S256x256, .f32⟩ : BufTy).Contents (Elt Ideal))
  (x3 : (⟨S256, .f32⟩ : BufTy).Contents (Elt Ideal))
  (x4 : (⟨S512x256, .f32⟩ : BufTy).Contents (Elt Ideal))
  (x5 : (⟨S256, .f32⟩ : BufTy).Contents (Elt Ideal))

/-- The first stage: the product of the features with the first weight matrix, plus the bias broadcast
    down the rows, rectified against the zero word. -/
theorem ref_hid (r : Fin 8192) (e : Fin 256) :
    val_main_v4 (F := Ideal) x1 x2 x3 (ix3 (0 : Fin 1) r e)
      = Cert.Spec.hid (fun r q => x1 (ix3 (0 : Fin 1) r q)) (fun q e => x2 (ix2 q e)) (fun e => x3 (ix1 e)) r e := by
  unfold Cert.Spec.hid
  rw [val_main_v4_apply, val_main_v3_apply, val_main_v0_apply, val_main_v2_apply, val_main_v1_apply,
    val_main_call0_v0_apply, val_main_call0_cst_apply]
  have hl : ∀ k : Fin 256, lidx_main_v0 (ix3 (0 : Fin 1) r e) k = ix3 (0 : Fin 1) r k := fun k =>
    funext fun a => Fin.ext (by match a with | ⟨0, _⟩ => rfl | ⟨1, _⟩ => rfl | ⟨2, _⟩ => rfl)
  have hr : ∀ k : Fin 256, ridx_main_v0 (ix3 (0 : Fin 1) r e) k = ix2 k e := fun k =>
    funext fun a => Fin.ext (by match a with | ⟨0, _⟩ => rfl | ⟨1, _⟩ => rfl)
  have hb : idx_main_v1 (idx_main_v2 (ix3 (0 : Fin 1) r e)) = ix1 e :=
    funext fun a => Fin.ext (by match a with | ⟨0, _⟩ => rfl)
  simp only [hl, hr, hb, Ideal.maximumf_def, Ideal.addf_def, Ideal.ofBits_def, Ideal.ofBits_zero_f32]

/-- The second stage: the adjacency times the hidden features, divided by the adjacency's row sum
    (from the zero word) plus the regulariser's word, broadcast along the features. -/
theorem ref_pool (r : Fin 8192) (d : Fin 256) :
    val_main_v11 (F := Ideal) x0 x1 x2 x3 (ix3 (0 : Fin 1) r d)
      = Cert.Spec.pool (fun r k => x0 (ix3 (0 : Fin 1) r k))
          (fun k d => val_main_v4 (F := Ideal) x1 x2 x3 (ix3 (0 : Fin 1) k d)) r d := by
  unfold Cert.Spec.pool Cert.Spec.eps
  rw [val_main_v11_apply, val_main_v5_apply, val_main_v10_apply, val_main_v9_apply, val_main_v7_apply,
    val_main_v6_apply, val_main_cst_apply, val_main_v8_apply, val_main_cst_0_apply]
  have hl : ∀ k : Fin 8192, lidx_main_v5 (ix3 (0 : Fin 1) r d) k = ix3 (0 : Fin 1) r k := fun k =>
    funext fun a => Fin.ext (by match a with | ⟨0, _⟩ => rfl | ⟨1, _⟩ => rfl | ⟨2, _⟩ => rfl)
  have hr : ∀ k : Fin 8192, ridx_main_v5 (ix3 (0 : Fin 1) r d) k = ix3 (0 : Fin 1) k d := fun k =>
    funext fun a => Fin.ext (by match a with | ⟨0, _⟩ => rfl | ⟨1, _⟩ => rfl | ⟨2, _⟩ => rfl)
  have hs : ∀ k : Fin 8192,
      idx_main_v6 (idx_main_v7 (idx_main_v10 (ix3 (0 : Fin 1) r d))) k = ix3 (0 : Fin 1) r k := fun k =>
    funext fun a => Fin.ext (by match a with | ⟨0, _⟩ => rfl | ⟨1, _⟩ => rfl | ⟨2, _⟩ => rfl)
  simp only [hl, hr, hs, Ideal.hostDivf_def, Ideal.addf_def, Ideal.ofBits_def, Ideal.ofBits_zero_f32, zero_add]

/-- The joined array at a column of its first half is the features' entry. -/
theorem cat_left (r : Fin 8192) (q : Fin 256) (k : Fin 512) (hk : k.val = q.val) :
    val_main_v12 (F := Ideal) x0 x1 x2 x3 (ix3 (0 : Fin 1) r k) = x1 (ix3 (0 : Fin 1) r q) := by
  unfold val_main_v12
  refine concatenate_pair_apply_left (2 : Fin S1x8192x512.rank) x1 _
    concatenates_S1x8192x256_S1x8192x256_S1x8192x512_d2 (ix3 (0 : Fin 1) r k) rfl (ix3 (0 : Fin 1) r q) (fun b => ?_)
  match b with
  | ⟨0, _⟩ => rfl
  | ⟨1, _⟩ => rfl
  | ⟨2, _⟩ => exact hk.symm

/-- The joined array at a column of its second half, 256 columns further on, is the pooled entry. -/
theorem cat_right (r : Fin 8192) (q : Fin 256) (k : Fin 512) (hk : k.val = 256 + q.val) :
    val_main_v12 (F := Ideal) x0 x1 x2 x3 (ix3 (0 : Fin 1) r k)
      = val_main_v11 (F := Ideal) x0 x1 x2 x3 (ix3 (0 : Fin 1) r q) := by
  unfold val_main_v12
  refine concatenate_pair_apply_right (2 : Fin S1x8192x512.rank) x1 _
    concatenates_S1x8192x256_S1x8192x256_S1x8192x512_d2 (ix3 (0 : Fin 1) r k) rfl rfl (ix3 (0 : Fin 1) r q)
    (fun b hb => ?_) ?_
  · match b, hb with
    | ⟨0, _⟩, _ => rfl
    | ⟨1, _⟩, _ => rfl
    | ⟨2, _⟩, hb => exact absurd rfl hb
  · show q.val + 256 = k.val
    omega

/-- The third stage: the joined array times the second weight matrix, the sum over its 512 columns split
    into the features' half and the pooled half, plus the bias, rectified, plus the regulariser's word. -/
theorem ref_pre (r : Fin 8192) (e : Fin 256) :
    val_main_v19 (F := Ideal) x0 x1 x2 x3 x4 x5 (ix3 (0 : Fin 1) r e)
      = Cert.Spec.pre (fun r q => x1 (ix3 (0 : Fin 1) r q))
          (fun r q => val_main_v11 (F := Ideal) x0 x1 x2 x3 (ix3 (0 : Fin 1) r q))
          (fun q e => x4 (ix2 (⟨q.val, by omega⟩ : Fin 512) e))
          (fun q e => x4 (ix2 (⟨256 + q.val, by omega⟩ : Fin 512) e))
          (fun e => x5 (ix1 e)) r e := by
  unfold Cert.Spec.pre Cert.Spec.eps
  rw [val_main_v19_apply, val_main_v17_apply, val_main_v16_apply, val_main_v13_apply, val_main_v15_apply,
    val_main_v14_apply, val_main_call1_v0_apply, val_main_call1_cst_apply, val_main_v18_apply, val_main_cst_1_apply]
  have hl : ∀ k : Fin 512, lidx_main_v13 (ix3 (0 : Fin 1) r e) k = ix3 (0 : Fin 1) r k := fun k =>
    funext fun a => Fin.ext (by match a with | ⟨0, _⟩ => rfl | ⟨1, _⟩ => rfl | ⟨2, _⟩ => rfl)
  have hr : ∀ k : Fin 512, ridx_main_v13 (ix3 (0 : Fin 1) r e) k = ix2 k e := fun k =>
    funext fun a => Fin.ext (by match a with | ⟨0, _⟩ => rfl | ⟨1, _⟩ => rfl)
  have hb : idx_main_v14 (idx_main_v15 (ix3 (0 : Fin 1) r e)) = ix1 e :=
    funext fun a => Fin.ext (by match a with | ⟨0, _⟩ => rfl)
  have hsplit : (∑ k : Fin 512, val_main_v12 (F := Ideal) x0 x1 x2 x3 (ix3 (0 : Fin 1) r k) * x4 (ix2 k e))
      = ∑ q : Fin 256, x1 (ix3 (0 : Fin 1) r q) * x4 (ix2 (⟨q.val, by omega⟩ : Fin 512) e)
        + ∑ q : Fin 256, val_main_v11 (F := Ideal) x0 x1 x2 x3 (ix3 (0 : Fin 1) r q)
            * x4 (ix2 (⟨256 + q.val, by omega⟩ : Fin 512) e) := by
    refine (Fin.sum_univ_add (a := 256) (b := 256)
      (fun k : Fin 512 => val_main_v12 (F := Ideal) x0 x1 x2 x3 (ix3 (0 : Fin 1) r k) * x4 (ix2 k e))).trans ?_
    refine congrArg₂ (· + ·) (Finset.sum_congr rfl fun q _ => ?_) (Finset.sum_congr rfl fun q _ => ?_)
    · show val_main_v12 (F := Ideal) x0 x1 x2 x3 (ix3 (0 : Fin 1) r (Fin.castAdd 256 q : Fin 512))
          * x4 (ix2 (Fin.castAdd 256 q : Fin 512) e) = _
      rw [cat_left x0 x1 x2 x3 r q (Fin.castAdd 256 q) rfl]
      rfl
    · show val_main_v12 (F := Ideal) x0 x1 x2 x3 (ix3 (0 : Fin 1) r (Fin.natAdd 256 q : Fin 512))
          * x4 (ix2 (Fin.natAdd 256 q : Fin 512) e) = _
      rw [cat_right x0 x1 x2 x3 r q (Fin.natAdd 256 q) rfl]
      rfl
  simp only [hl, hr, hb, hsplit, Ideal.maximumf_def, Ideal.addf_def, Ideal.ofBits_def, Ideal.ofBits_zero_f32]

/-- An index of the whole array is its row and column: the leading axis has one position. -/
def idxEquiv3 : S1x8192x256.Idx ≃ Fin 8192 × Fin 256 where
  toFun i := (i 1, i 2)
  invFun p := ix3 (0 : Fin 1) p.1 p.2
  left_inv i := by
    funext a
    match a with
    | ⟨0, _⟩ =>
      refine Fin.ext ?_
      have h : (i 0).val < 1 := (i 0).isLt
      show (0 : Nat) = (i 0).val
      omega
    | ⟨1, _⟩ => rfl
    | ⟨2, _⟩ => rfl
  right_inv _ := rfl

/-- A sum over every index of the whole array is the double sum over rows and columns. -/
theorem sum_idx3 (f : S1x8192x256.Idx → EReal) :
    ∑ j, f j = ∑ r' : Fin 8192, ∑ e' : Fin 256, f (ix3 (0 : Fin 1) r' e') := by
  rw [← Equiv.sum_comp idxEquiv3.symm f, Fintype.sum_prod_type]
  rfl

/-- The last stage: each entry divided by the square root of the sum of all squares (from the zero word)
    plus the regulariser's word. -/
theorem ref_out (r : Fin 8192) (e : Fin 256) :
    val_main_v23 (F := Ideal) x0 x1 x2 x3 x4 x5 (ix3 (0 : Fin 1) r e)
      = Cert.Spec.normed (fun r e => val_main_v19 (F := Ideal) x0 x1 x2 x3 x4 x5 (ix3 (0 : Fin 1) r e)) r e := by
  unfold Cert.Spec.normed Cert.Spec.eps
  rw [val_main_v23_apply, val_main_v22_apply, val_main_v21_apply, val_main_v20_apply, val_main_call2_v1_apply,
    val_main_call2_cst_apply, val_main_cst_2_apply, sum_idx3]
  simp only [val_main_call2_v0_apply, Ideal.mulf_def, Ideal.hostDivf_def, Ideal.hostUnary_sqrt_def, Ideal.addf_def,
    Ideal.ofBits_def, Ideal.ofBits_zero_f32, zero_add]

end Cert.RefRead

end
-- ==== Proof.Value.Chain.lean ====
/-
  The final chain: the kernel program's result buffer, read from the launch memory through the host prefix, the three
  calls and the host tail, is the reference's last stage of the same six arguments.

  Each link reads one call's output array at an entry, brings what the call read back to the launch arguments (the
  prefix's reshapes and slices at an index, the buffers a call leaves untouched), and meets the reference's stage through
  the specification: hidden layer, pooled average, second layer, normalised result.
-/
import proofs.«101960_j84868553769261_1_alg».proof.Proof.KernelIdeal.Run
import proofs.«101960_j84868553769261_1_alg».proof.Proof.Value.Arr0
import proofs.«101960_j84868553769261_1_alg».proof.Proof.Value.Arr1
import proofs.«101960_j84868553769261_1_alg».proof.Proof.Value.Arr2
import proofs.«101960_j84868553769261_1_alg».proof.Proof.Value.HostOps
import proofs.«101960_j84868553769261_1_alg».proof.Proof.Value.RefRead

noncomputable section

open scoped BigOperators

namespace Cert.Chain

open Cert.KernelIdeal Cert.KernelIdeal.Gen Cert.KernelIdeal.Hand Cert.ReferenceIdeal.Read
open Idealize.ShloMosaic Idealize.ShloMosaic.TcCoe Idealize.SL.Sem Idealize.ShloMosaic.ValueIdx

-- the launch memory
variable (m : (ℓ : Loc nD τ sig) → Buf (Elt Ideal) ℓ)

/-! ## Buffers carried across the calls

A call leaves every buffer that is not one of its arrays as it found it, and hands an input array back as it found it. -/

/-- An input array of the first call is handed back as found. -/
theorem W2_in (c : Dev nD) (w : Fin cfg0.W) (hin : (cfg0.win w).isOut = false) :
    W2 m c (Proc.devRef .tc (Pipeline.arrRef spec0 w)) = V1 m c (Proc.devRef .tc (Pipeline.arrRef spec0 w)) :=
  (W2_arr m c w).trans (((dat0 (E1 m) c).arrAt_in w hin _).trans (A_eq0 (E1 m) c w))

/-- The reshaped adjacency reaches the second call as the prefix left it. -/
theorem at2_v0 (c : Dev nD) : (W2 m c main_v0 : S8192x8192.Idx → EReal) = V1 m c main_v0 :=
  W2_of_ne m c main_v0 (by decide)
/-- The reshaped features reach the third call as the prefix left them: the second call does not hold them, the first
    reads them only. -/
theorem at3_v1 (c : Dev nD) : (W3 m c main_v1 : S8192x256.Idx → EReal) = V1 m c main_v1 :=
  (W3_of_ne m c main_v1 (by decide)).trans (W2_in m c 0 rfl)
/-- The two halves of the second weight matrix and the second bias reach the third call as the prefix left them. -/
theorem at3_v4 (c : Dev nD) : (W3 m c main_v4 : S256x256.Idx → EReal) = V1 m c main_v4 :=
  (W3_of_ne m c main_v4 (by decide)).trans (W2_of_ne m c main_v4 (by decide))
theorem at3_v5 (c : Dev nD) : (W3 m c main_v5 : S256x256.Idx → EReal) = V1 m c main_v5 :=
  (W3_of_ne m c main_v5 (by decide)).trans (W2_of_ne m c main_v5 (by decide))
theorem at3_v3 (c : Dev nD) : (W3 m c main_v3 : S1x256.Idx → EReal) = V1 m c main_v3 :=
  (W3_of_ne m c main_v3 (by decide)).trans (W2_of_ne m c main_v3 (by decide))

/-- What the first call reads, brought back to the launch arguments: the features through their reshape, the first
    weight matrix as launched, the first bias through its reshape to a row. -/
theorem entry0_X (c : Dev nD) :
    Cert.Arr0.X (E1 m) c = fun r q => (m ((c.tc : Thread nD τ).loc main_arg1) : S1x8192x256.Idx → EReal) (ix3 (0 : Fin 1) r q) :=
  funext fun r => funext fun q => Cert.HostOps.pre_v1 (V0 m c) r q
theorem entry0_W (c : Dev nD) :
    Cert.Arr0.W (E1 m) c = fun q e => (m ((c.tc : Thread nD τ).loc main_arg2) : S256x256.Idx → EReal) (ix2 q e) :=
  funext fun q => funext fun e => congrFun (Cert.HostOps.pre_arg2 (V0 m c)) (ix2 q e)
theorem entry0_B (c : Dev nD) :
    Cert.Arr0.B (E1 m) c = fun e => (m ((c.tc : Thread nD τ).loc main_arg3) : S256.Idx → EReal) (ix1 e) :=
  funext fun e => Cert.HostOps.pre_v2 (V0 m c) e

/-- The first call's output array is the reference's hidden layer. -/
theorem link0 (c : Dev nD) (R : Fin 8192) (e : Fin 256) :
    @Eq EReal ((W2 m c main_v6 : S8192x256.Idx → EReal) (ix2 R e))
      (val_main_v4 (F := Ideal) (m ((c.tc : Thread nD τ).loc main_arg1)) (m ((c.tc : Thread nD τ).loc main_arg2))
        (m ((c.tc : Thread nD τ).loc main_arg3)) (ix3 (0 : Fin 1) R e)) := by
  have h : (W2 m c main_v6 : S8192x256.Idx → EReal) = (dat0 (E1 m) c).arrAt 3 cfg0.N := W2_arr m c 3
  rw [h, Cert.Arr0.arr0_hid (E1 m) c R e, Cert.RefRead.ref_hid, entry0_X, entry0_W, entry0_B]

/-- The second call's output array is the reference's pooled average: the adjacency through its reshape, the hidden
    layer by the first link. -/
theorem link1 (c : Dev nD) (R : Fin 8192) (d : Fin 256) :
    @Eq EReal ((W3 m c main_v7 : S8192x256.Idx → EReal) (ix2 R d))
      (val_main_v11 (F := Ideal) (m ((c.tc : Thread nD τ).loc main_arg0)) (m ((c.tc : Thread nD τ).loc main_arg1)) (m ((c.tc : Thread nD τ).loc main_arg2))
        (m ((c.tc : Thread nD τ).loc main_arg3)) (ix3 (0 : Fin 1) R d)) := by
  have h : (W3 m c main_v7 : S8192x256.Idx → EReal) = (dat1 (E2 m) c).arrAt 2 cfg1.N := W3_arr m c 2
  have hA : (fun (r : Fin 8192) (k : Fin 8192) => (W2 m c main_v0 : S8192x8192.Idx → EReal) (ix2 r k))
      = fun r k => ((m ((c.tc : Thread nD τ).loc main_arg0)) : S1x8192x8192.Idx → EReal) (ix3 (0 : Fin 1) r k) :=
    funext fun r => funext fun k => (congrFun (at2_v0 m c) (ix2 r k)).trans (Cert.HostOps.pre_v0 (V0 m c) r k)
  have hH : (fun (k : Fin 8192) (d : Fin 256) => (W2 m c main_v6 : S8192x256.Idx → EReal) (ix2 k d))
      = fun k d => val_main_v4 (F := Ideal) (m ((c.tc : Thread nD τ).loc main_arg1)) (m ((c.tc : Thread nD τ).loc main_arg2))
          (m ((c.tc : Thread nD τ).loc main_arg3)) (ix3 (0 : Fin 1) k d) :=
    funext fun k => funext fun d => link0 m c k d
  have hp : @Eq EReal ((dat1 (E2 m) c).arrAt 2 cfg1.N (ix2 R d))
      (Cert.Spec.pool (fun (r : Fin 8192) (k : Fin 8192) => (W2 m c main_v0 : S8192x8192.Idx → EReal) (ix2 r k))
        (fun (k : Fin 8192) (d : Fin 256) => (W2 m c main_v6 : S8192x256.Idx → EReal) (ix2 k d)) R d) :=
    Cert.Arr1.arr1_spec (E2 m) c R d
  rw [h, hp, hA, hH, Cert.RefRead.ref_pool]

/-- The third call's output array is the reference's second layer: the features, the two weight halves and the bias
    through the prefix, the pooled average by the second link. -/
theorem link2 (c : Dev nD) (R : Fin 8192) (e : Fin 256) :
    @Eq EReal ((W4 m c main_v8 : S8192x256.Idx → EReal) (ix2 R e))
      (val_main_v19 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix3 (0 : Fin 1) R e)) := by
  have h : (W4 m c main_v8 : S8192x256.Idx → EReal) = (dat2 (E3 m) c).arrAt 5 cfg2.N := W4_arr m c 5
  have hX : (fun (r : Fin 8192) (q : Fin 256) => (W3 m c main_v1 : S8192x256.Idx → EReal) (ix2 r q))
      = fun r q => ((m ((c.tc : Thread nD τ).loc main_arg1)) : S1x8192x256.Idx → EReal) (ix3 (0 : Fin 1) r q) :=
    funext fun r => funext fun q => (congrFun (at3_v1 m c) (ix2 r q)).trans (Cert.HostOps.pre_v1 (V0 m c) r q)
  have hP : (fun (r : Fin 8192) (q : Fin 256) => (W3 m c main_v7 : S8192x256.Idx → EReal) (ix2 r q))
      = fun r q => val_main_v11 (F := Ideal) (m ((c.tc : Thread nD τ).loc main_arg0)) (m ((c.tc : Thread nD τ).loc main_arg1)) (m ((c.tc : Thread nD τ).loc main_arg2))
          (m ((c.tc : Thread nD τ).loc main_arg3)) (ix3 (0 : Fin 1) r q) :=
    funext fun r => funext fun q => link1 m c r q
  have hW1 : (fun (q : Fin 256) (e : Fin 256) => (W3 m c main_v4 : S256x256.Idx → EReal) (ix2 q e))
      = fun q e => ((m ((c.tc : Thread nD τ).loc main_arg4)) : S512x256.Idx → EReal) (ix2 (⟨q.val, by omega⟩ : Fin 512) e) :=
    funext fun q => funext fun e => (congrFun (at3_v4 m c) (ix2 q e)).trans (Cert.HostOps.pre_v4 (V0 m c) q e)
  have hW2 : (fun (q : Fin 256) (e : Fin 256) => (W3 m c main_v5 : S256x256.Idx → EReal) (ix2 q e))
      = fun q e => ((m ((c.tc : Thread nD τ).loc main_arg4)) : S512x256.Idx → EReal) (ix2 (⟨256 + q.val, by omega⟩ : Fin 512) e) :=
    funext fun q => funext fun e => (congrFun (at3_v5 m c) (ix2 q e)).trans (Cert.HostOps.pre_v5 (V0 m c) q e)
  have hb : (fun (e : Fin 256) => (W3 m c main_v3 : S1x256.Idx → EReal) (ix2 (0 : Fin 1) e))
      = fun e => ((m ((c.tc : Thread nD τ).loc main_arg5)) : S256.Idx → EReal) (ix1 e) :=
    funext fun e => (congrFun (at3_v3 m c) (ix2 (0 : Fin 1) e)).trans (Cert.HostOps.pre_v3 (V0 m c) e)
  have hp : @Eq EReal ((dat2 (E3 m) c).arrAt 5 cfg2.N (ix2 R e))
      (Cert.Spec.pre (fun (r : Fin 8192) (q : Fin 256) => (W3 m c main_v1 : S8192x256.Idx → EReal) (ix2 r q))
        (fun (r : Fin 8192) (q : Fin 256) => (W3 m c main_v7 : S8192x256.Idx → EReal) (ix2 r q))
        (fun (q : Fin 256) (e : Fin 256) => (W3 m c main_v4 : S256x256.Idx → EReal) (ix2 q e))
        (fun (q : Fin 256) (e : Fin 256) => (W3 m c main_v5 : S256x256.Idx → EReal) (ix2 q e))
        (fun (e : Fin 256) => (W3 m c main_v3 : S1x256.Idx → EReal) (ix2 (0 : Fin 1) e)) R e) :=
    Cert.Arr2.arr2_spec (E3 m) c R e
  rw [h, hp, hX, hP, hW1, hW2, hb, Cert.RefRead.ref_pre]

/-- The result buffer at an entry: the host tail divides the third call's array by its regularised norm, and that
    array is the reference's second layer by the third link. -/
theorem result_at (c : Dev nD) (R : Fin 8192) (e : Fin 256) :
    @Eq EReal ((W5 m c main_v15 : S1x8192x256.Idx → EReal) (ix3 (0 : Fin 1) R e))
      (val_main_v23 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (ix3 (0 : Fin 1) R e)) := by
  have hP : (fun (r : Fin 8192) (e : Fin 256) => (W4 m c main_v8 : S8192x256.Idx → EReal) (ix2 r e))
      = fun r e => val_main_v19 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (ix3 (0 : Fin 1) r e) :=
    funext fun r => funext fun e => link2 m c r e
  have ht : @Eq EReal ((W5 m c main_v15 : S1x8192x256.Idx → EReal) (ix3 (0 : Fin 1) R e))
      (Cert.Spec.normed (fun (r : Fin 8192) (e : Fin 256) => (W4 m c main_v8 : S8192x256.Idx → EReal) (ix2 r e)) R e) :=
    Cert.HostOps.tail_v15 (W4 m c) R e
  rw [ht, hP, Cert.RefRead.ref_out]

/-- THE CHAIN: the kernel program's result buffer is the reference's last stage of the launch arguments. Every index of
    the result has leading coordinate 0, so it is (0, row, column). -/
theorem result_eq (c : Dev nD) :
    (W5 m c main_v15 : S1x8192x256.Idx → EReal)
      = val_main_v23 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  rw [show i = ix3 (0 : Fin 1) (i 1) (i 2) from (Cert.RefRead.idxEquiv3.left_inv i).symm]
  exact result_at m c (i 1) (i 2)

end Cert.Chain

end
-- ==== Proof.lean ====
/-
  The certificate of a three-call graph layer against its jnp reference, over the extended reals.

  Both programs compute, for node features X, dense adjacency A and two affine layers,
      h      = max (X·W + b) 0
      pooled = (A·h) / (rowsum A + eps)
      pre    = max ([X, pooled]·W' + b') 0 + eps
      out    = pre / (sqrt (sum of pre²) + eps).
  The kernel program does it in three pallas_calls and a host tail: the first call stores h in a narrower float format
  (the identity at the ideal instance); the second accumulates A·h and the row sums of A over eight column blocks of
  1024 in two scratch buffers carried across the grid's inner axis, and divides at the last block; the third splits
  [X, pooled]·W' into X·W'₁ + pooled·W'₂. Against the reference's one-shot sums these are regroupings of finite sums of
  extended reals: only commutativity and associativity of + are used, never distributivity, so no finiteness of the
  inputs is needed. eps is the same single-precision word on both sides and is never evaluated.

  The frames of the two kernel programs are one text, generic in the float instance, read at the word-level instance and
  at the ideal one (Proof/Kernel/Run.lean, Proof/KernelIdeal/Run.lean): every weakly fair execution ends with every
  unscoped buffer at the fold of @main's five items over the launch memory. The reference's frame is its run with the
  result dropped. The ideal pass rewrote no operation, so 'preserves' has nothing to state. The value claim reads the
  kernel's result off that fold, call by call, and identifies each call's output array with a stage of the reference
  (Proof/Value/Chain.lean).
-/
import proofs.«101960_j84868553769261_1_alg».proof.Defs
import proofs.«101960_j84868553769261_1_alg».proof.Proof.Gen.Kernel
import proofs.«101960_j84868553769261_1_alg».proof.Proof.Gen.KernelIdeal
import proofs.«101960_j84868553769261_1_alg».proof.Proof.Gen.ReferenceIdeal
import proofs.«101960_j84868553769261_1_alg».proof.Proof.Gen.Pre_finite_inputs
import proofs.«101960_j84868553769261_1_alg».proof.Proof.Gen.ReferenceIdeal.Run
import proofs.«101960_j84868553769261_1_alg».proof.Proof.Gen.ReferenceIdeal.Read
import proofs.«101960_j84868553769261_1_alg».proof.Proof.Kernel.Run
import proofs.«101960_j84868553769261_1_alg».proof.Proof.KernelIdeal.Run
import proofs.«101960_j84868553769261_1_alg».proof.Proof.Value.Chain
import Idealize.ShloMosaic.Adequacy
import Idealize.ShloMosaic.Init

noncomputable section

namespace Cert.Proof

open Idealize.ShloMosaic Idealize.ShloMosaic.TcCoe Idealize.SL.Sem

/-- The word-level kernel program runs to the end and leaves its six arguments as launched. -/
theorem frame_k : Cert.frame_Kernel := fun m ρ _ => Cert.Kernel.Hand.frame (F := Bits) m ρ

/-- So does its idealization: the same text at the ideal instance. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct. -/
theorem preserves : Cert.preserves_Kernel_KernelIdeal := trivial

/-- From memories agreeing on the six arguments both idealized programs end with the same result array: the kernel
    program's result buffer holds the last fold's contents, which is the reference's last stage of the arguments. -/
theorem algebraic : Cert.algebraic_KernelIdeal_ReferenceIdeal := by
  intro m ρ m' ρ' _ hagree
  refine ⟨fun c => Cert.KernelIdeal.Hand.W5 m c Cert.KernelIdeal.main_v15,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2]
  exact (Cert.Chain.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
